-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S82206x1024 : Shape := ⟨2, ![82206, 1024]⟩
abbrev S122186x1024 : Shape := ⟨2, ![122186, 1024]⟩
abbrev S82206 : Shape := ⟨1, ![82206]⟩
abbrev S122186 : Shape := ⟨1, ![122186]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S82206x1024 : S_.BroadcastsInDim S82206x1024 (![] : Fin 0 → Fin S82206x1024.rank)
  reducesTo_S82206x1024_S_d0_1 : S82206x1024.ReducesTo [0, 1] S_
  bcast_S_S122186x1024 : S_.BroadcastsInDim S122186x1024 (![] : Fin 0 → Fin S122186x1024.rank)
  reducesTo_S122186x1024_S_d0_1 : S122186x1024.ReducesTo [0, 1] S_
  bcast_S_S82206 : S_.BroadcastsInDim S82206 (![] : Fin 0 → Fin S82206.rank)
  reducesTo_S82206_S_d0 : S82206.ReducesTo [0] S_
  bcast_S_S122186 : S_.BroadcastsInDim S122186 (![] : Fin 0 → Fin S122186.rank)
  reducesTo_S122186_S_d0 : S122186.ReducesTo [0] S_

variable [Facts]

def fn_part1 {F : FTy → Type} [FloatOps F] (main_arg4 : FVec F S82206 .f32) (main_arg5 : FVec F S122186 .f32) (main_arg6 : FVec F S122186 .f32) (main_v13 : IVec S_ 1) (main_v16 : IVec S82206 1) : IVec S_ 1 :=
  let main_c_5 : IVec S_ 1 := constantI S_ 1 1#1
  let main_v17 : IVec S_ 1 := (fun x v => Host.reduce IntOp.andi x v reducesTo_S82206_S_d0 h_S_) main_v16 main_c_5
  let main_v18 : IVec S_ 1 := andi main_v13 main_v17
  let main_v19 : FVec F S82206 .f32 := Host.absf main_arg4
  let main_cst_6 : FVec F S_ .f32 := constant S_ .f32 0x7F800000#32
  let main_v20 : FVec F S82206 .f32 := broadcastInDim S82206 ![] bcast_S_S82206 main_cst_6
  let main_v21 : IVec S82206 1 := cmpf .olt main_v19 main_v20
  let main_c_7 : IVec S_ 1 := constantI S_ 1 1#1
  let main_v22 : IVec S_ 1 := (fun x v => Host.reduce IntOp.andi x v reducesTo_S82206_S_d0 h_S_) main_v21 main_c_7
  let main_v23 : IVec S_ 1 := andi main_v18 main_v22
  let main_v24 : FVec F S122186 .f32 := Host.absf main_arg5
  let main_cst_8 : FVec F S_ .f32 := constant S_ .f32 0x7F800000#32
  let main_v25 : FVec F S122186 .f32 := broadcastInDim S122186 ![] bcast_S_S122186 main_cst_8
  let main_v26 : IVec S122186 1 := cmpf .olt main_v24 main_v25
  let main_c_9 : IVec S_ 1 := constantI S_ 1 1#1
  let main_v27 : IVec S_ 1 := (fun x v => Host.reduce IntOp.andi x v reducesTo_S122186_S_d0 h_S_) main_v26 main_c_9
  let main_v28 : IVec S_ 1 := andi main_v23 main_v27
  let main_v29 : FVec F S122186 .f32 := Host.absf main_arg6
  let main_cst_10 : FVec F S_ .f32 := constant S_ .f32 0x7F800000#32
  let main_v30 : FVec F S122186 .f32 := broadcastInDim S122186 ![] bcast_S_S122186 main_cst_10
  let main_v31 : IVec S122186 1 := cmpf .olt main_v29 main_v30
  let main_c_11 : IVec S_ 1 := constantI S_ 1 1#1
  let main_v32 : IVec S_ 1 := (fun x v => Host.reduce IntOp.andi x v reducesTo_S122186_S_d0 h_S_) main_v31 main_c_11
  let main_v33 : IVec S_ 1 := andi main_v28 main_v32
  main_v33

def fn {F : FTy → Type} [FloatOps F] (main_arg0 : FVec F S64x1024 .f32) (main_arg1 : FVec F S82206x1024 .f32) (main_arg2 : FVec F S122186x1024 .f32) (main_arg3 : FVec F S82206 .f32) (main_arg4 : FVec F S82206 .f32) (main_arg5 : FVec F S122186 .f32) (main_arg6 : FVec F S122186 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S82206x1024 .f32 := Host.absf main_arg1
  let main_cst_0 : FVec F S_ .f32 := constant S_ .f32 0x7F800000#32
  let main_v5 : FVec F S82206x1024 .f32 := broadcastInDim S82206x1024 ![] bcast_S_S82206x1024 main_cst_0
  let main_v6 : IVec S82206x1024 1 := cmpf .olt main_v4 main_v5
  let main_c_1 : IVec S_ 1 := constantI S_ 1 1#1
  let main_v7 : IVec S_ 1 := (fun x v => Host.reduce IntOp.andi x v reducesTo_S82206x1024_S_d0_1 h_S_) main_v6 main_c_1
  let main_v8 : IVec S_ 1 := andi main_v3 main_v7
  let main_v9 : FVec F S122186x1024 .f32 := Host.absf main_arg2
  let main_cst_2 : FVec F S_ .f32 := constant S_ .f32 0x7F800000#32
  let main_v10 : FVec F S122186x1024 .f32 := broadcastInDim S122186x1024 ![] bcast_S_S122186x1024 main_cst_2
  let main_v11 : IVec S122186x1024 1 := cmpf .olt main_v9 main_v10
  let main_c_3 : IVec S_ 1 := constantI S_ 1 1#1
  let main_v12 : IVec S_ 1 := (fun x v => Host.reduce IntOp.andi x v reducesTo_S122186x1024_S_d0_1 h_S_) main_v11 main_c_3
  let main_v13 : IVec S_ 1 := andi main_v8 main_v12
  let main_v14 : FVec F S82206 .f32 := Host.absf main_arg3
  let main_cst_4 : FVec F S_ .f32 := constant S_ .f32 0x7F800000#32
  let main_v15 : FVec F S82206 .f32 := broadcastInDim S82206 ![] bcast_S_S82206 main_cst_4
  let main_v16 : IVec S82206 1 := cmpf .olt main_v14 main_v15
  fn_part1 (F := F) main_arg4 main_arg5 main_arg6 main_v13 main_v16
-- ==== Kernel.lean ====
abbrev S64x1024 : Shape := ⟨2, ![64, 1024]⟩
abbrev S82206x1024 : Shape := ⟨2, ![82206, 1024]⟩
abbrev S122186x1024 : Shape := ⟨2, ![122186, 1024]⟩
abbrev S82206 : Shape := ⟨1, ![82206]⟩
abbrev S122186 : Shape := ⟨1, ![122186]⟩
abbrev S1x82206 : Shape := ⟨2, ![1, 82206]⟩
abbrev S64x82206 : Shape := ⟨2, ![64, 82206]⟩
abbrev S2048x1024 : Shape := ⟨2, ![2048, 1024]⟩
abbrev S1x2048 : Shape := ⟨2, ![1, 2048]⟩
abbrev S64x2048 : Shape := ⟨2, ![64, 2048]⟩
abbrev S1x122186 : Shape := ⟨2, ![1, 122186]⟩
abbrev S64x122186 : Shape := ⟨2, ![64, 122186]⟩

abbrev nBuf : Space → Nat
  | .hbm => 13
  | .vmem => 18
  | .smem => 0
  | _ => 0

abbrev bufTy : (tb : Table) → Fin (tcTables nBuf tb) → BufTy
  | .hbm, ⟨0, _⟩ => ⟨S64x1024, .f32⟩
  | .hbm, ⟨1, _⟩ => ⟨S82206x1024, .f32⟩
  | .hbm, ⟨2, _⟩ => ⟨S122186x1024, .f32⟩
  | .hbm, ⟨3, _⟩ => ⟨S82206, .f32⟩
  | .hbm, ⟨4, _⟩ => ⟨S82206, .f32⟩
  | .hbm, ⟨5, _⟩ => ⟨S122186, .f32⟩
  | .hbm, ⟨6, _⟩ => ⟨S122186, .f32⟩
  | .hbm, ⟨7, _⟩ => ⟨S1x82206, .f32⟩
  | .hbm, ⟨8, _⟩ => ⟨S1x82206, .f32⟩
  | .hbm, ⟨9, _⟩ => ⟨S64x82206, .f32⟩
  | .hbm, ⟨10, _⟩ => ⟨S1x122186, .f32⟩
  | .hbm, ⟨11, _⟩ => ⟨S1x122186, .f32⟩
  | .hbm, ⟨12, _⟩ => ⟨S64x122186, .f32⟩
  | .local _ .vmem, ⟨0, _⟩ => ⟨S64x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S64x2048, .f32⟩
  | .local _ .vmem, ⟨8, _⟩ => ⟨S64x2048, .f32⟩
  | .local _ .vmem, ⟨9, _⟩ => ⟨S64x1024, .f32⟩
  | .local _ .vmem, ⟨10, _⟩ => ⟨S2048x1024, .f32⟩
  | .local _ .vmem, ⟨11, _⟩ => ⟨S2048x1024, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S64x2048, .f32⟩
  | .local _ .vmem, ⟨17, _⟩ => ⟨S64x2048, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S82206_S1x82206 : S82206.ShapeCasts S1x82206
  inb_S64x1024_S64x1024_0_0 : ∀ a, (![0, 0] : Fin 2 → Nat) a + S64x1024.size a ≤ S64x1024.size a
  h_S64x1024 : 0 < S64x1024.numel
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S64x2048_S64x2048_0_0 : ∀ a, (![0, 0] : Fin 2 → Nat) a + S64x2048.size a ≤ S64x2048.size a
  h_S64x2048 : 0 < S64x2048.numel
  shapeCasts_S122186_S1x122186 : S122186.ShapeCasts S1x122186
  dot_S64x1024_S2048x1024_S64x2048_1_1_0_0_n_n_wf : DotDims.WF S64x1024 S2048x1024 S64x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S82206x1024.size a
  hwx0_1 : ∀ i : grid0.Coords, EltTy.bits .f32 = 32 ∨ (Rect.unit (s := S82206x1024) (fun a => cc0_transform_1 i a * S2048x1024.size a) (fun a => (Pipeline.Clip.of (cc0_transform_1 i a) (S2048x1024.size a) (S82206x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S82206x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x82206.size a
  hwx0_2 : ∀ i : grid0.Coords, EltTy.bits .f32 = 32 ∨ (Rect.unit (s := S1x82206) (fun a => cc0_transform_2 i a * S1x2048.size a) (fun a => (Pipeline.Clip.of (cc0_transform_2 i a) (S1x2048.size a) (S1x82206.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x82206.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x82206.size a
  hwx0_3 : ∀ i : grid0.Coords, EltTy.bits .f32 = 32 ∨ (Rect.unit (s := S1x82206) (fun a => cc0_transform_3 i a * S1x2048.size a) (fun a => (Pipeline.Clip.of (cc0_transform_3 i a) (S1x2048.size a) (S1x82206.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x82206.size a)).extent (S1x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S64x2048.size a < S64x82206.size a
  hwx0_4 : ∀ i : grid0.Coords, EltTy.bits .f32 = 32 ∨ (Rect.unit (s := S64x82206) (fun a => cc0_transform_4 i a * S64x2048.size a) (fun a => (Pipeline.Clip.of (cc0_transform_4 i a) (S64x2048.size a) (S64x82206.size a)).extent (S64x2048.size a)) fun a => Pipeline.Clip.inb (Pipeline.Clip.ok_of (hstart0_4 i a))).WholeWords (EltTy.packing .f32)
  hwxs0_4 : ∀ i : grid0.Coords, EltTy.bits .f32 = 32 ∨ (Rect.unit (s := S64x2048) (fun _ => 0) (fun a => (Pipeline.Clip.of (cc0_transform_4 i a) (S64x2048.size a) (S64x82206.size a)).extent (S64x2048.size a)) fun a => (Nat.zero_add _).trans_le (Pipeline.Clip.extent_le (Pipeline.Clip.ok_of (hstart0_4 i a)))).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1024.size a < S122186x1024.size a
  hwx1_1 : ∀ i : grid1.Coords, EltTy.bits .f32 = 32 ∨ (Rect.unit (s := S122186x1024) (fun a => cc1_transform_1 i a * S2048x1024.size a) (fun a => (Pipeline.Clip.of (cc1_transform_1 i a) (S2048x1024.size a) (S122186x1024.size a)).extent (S2048x1024.size a)) fun a => Pipeline.Clip.inb (Pipeline.Clip.ok_of (hstart1_1 i a))).WholeWords (EltTy.packing .f32)
  hwxs1_1 : ∀ i : grid1.Coords, EltTy.bits .f32 = 32 ∨ (Rect.unit (s := S2048x1024) (fun _ => 0) (fun a => (Pipeline.Clip.of (cc1_transform_1 i a) (S2048x1024.size a) (S122186x1024.size a)).extent (S2048x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x2048.size a < S1x122186.size a
  hwx1_2 : ∀ i : grid1.Coords, EltTy.bits .f32 = 32 ∨ (Rect.unit (s := S1x122186) (fun a => cc1_transform_2 i a * S1x2048.size a) (fun a => (Pipeline.Clip.of (cc1_transform_2 i a) (S1x2048.size a) (S1x122186.size a)).extent (S1x2048.size a)) fun a => Pipeline.Clip.inb (Pipeline.Clip.ok_of (hstart1_2 i a))).WholeWords (EltTy.packing .f32)
  hwxs1_2 : ∀ i : grid1.Coords, EltTy.bits .f32 = 32 ∨ (Rect.unit (s := S1x2048) (fun _ => 0) (fun a => (Pipeline.Clip.of (cc1_transform_2 i a) (S1x2048.size a) (S1x122186.size a)).extent (S1x2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x2048.size a < S1x122186.size a
  hwx1_3 : ∀ i : grid1.Coords, EltTy.bits .f32 = 32 ∨ (Rect.unit (s := S1x122186) (fun a => cc1_transform_3 i a * S1x2048.size a) (fun a => (Pipeline.Clip.of (cc1_transform_3 i a) (S1x2048.size a) (S1x122186.size a)).extent (S1x2048.size a)) fun a => Pipeline.Clip.inb (Pipeline.Clip.ok_of (hstart1_3 i a))).WholeWords (EltTy.packing .f32)
  hwxs1_3 : ∀ i : grid1.Coords, EltTy.bits .f32 = 32 ∨ (Rect.unit (s := S1x2048) (fun _ => 0) (fun a => (Pipeline.Clip.of (cc1_transform_3 i a) (S1x2048.size a) (S1x122186.size a)).extent (S1x2048.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S64x2048.size a < S64x122186.size a
  hwx1_4 : ∀ i : grid1.Coords, EltTy.bits .f32 = 32 ∨ (Rect.unit (s := S64x122186) (fun a => cc1_transform_4 i a * S64x2048.size a) (fun a => (Pipeline.Clip.of (cc1_transform_4 i a) (S64x2048.size a) (S64x122186.size a)).extent (S64x2048.size a)) fun a => Pipeline.Clip.inb (Pipeline.Clip.ok_of (hstart1_4 i a))).WholeWords (EltTy.packing .f32)
  hwxs1_4 : ∀ i : grid1.Coords, EltTy.bits .f32 = 32 ∨ (Rect.unit (s := S64x2048) (fun _ => 0) (fun a => (Pipeline.Clip.of (cc1_transform_4 i a) (S64x2048.size a) (S64x122186.size a)).extent (S64x2048.size a)) fun a => (Nat.zero_add _).trans_le (Pipeline.Clip.extent_le (Pipeline.Clip.ok_of (hstart1_4 i a)))).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf

abbrev win0_0 : Pipeline.Window sig grid0 :=
  Pipeline.Window.ofSpec (Memref.whole main_arg0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x2048.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S64x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S2048x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S1x2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v4) S1x2048.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v5) S64x2048.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x1024 : Shape := ⟨2, ![64, 1024]⟩
abbrev S82206x1024 : Shape := ⟨2, ![82206, 1024]⟩
abbrev S122186x1024 : Shape := ⟨2, ![122186, 1024]⟩
abbrev S82206 : Shape := ⟨1, ![82206]⟩
abbrev S122186 : Shape := ⟨1, ![122186]⟩
abbrev S1024x82206 : Shape := ⟨2, ![1024, 82206]⟩
abbrev S64x82206 : Shape := ⟨2, ![64, 82206]⟩
abbrev S1024x122186 : Shape := ⟨2, ![1024, 122186]⟩
abbrev S64x122186 : Shape := ⟨2, ![64, 122186]⟩
abbrev S1x82206 : Shape := ⟨2, ![1, 82206]⟩
abbrev S_ : Shape := ⟨0, ![]⟩
abbrev S1x122186 : Shape := ⟨2, ![1, 122186]⟩

abbrev nBuf : Space → Nat
  | .hbm => 29
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S82206x1024, .f32⟩
  | .hbm, ⟨2, _⟩ => ⟨S122186x1024, .f32⟩
  | .hbm, ⟨3, _⟩ => ⟨S82206, .f32⟩
  | .hbm, ⟨4, _⟩ => ⟨S82206, .f32⟩
  | .hbm, ⟨5, _⟩ => ⟨S122186, .f32⟩
  | .hbm, ⟨6, _⟩ => ⟨S122186, .f32⟩
  | .hbm, ⟨7, _⟩ => ⟨S1024x82206, .f32⟩
  | .hbm, ⟨8, _⟩ => ⟨S64x82206, .f32⟩
  | .hbm, ⟨9, _⟩ => ⟨S1024x122186, .f32⟩
  | .hbm, ⟨10, _⟩ => ⟨S64x122186, .f32⟩
  | .hbm, ⟨11, _⟩ => ⟨S1x82206, .f32⟩
  | .hbm, ⟨12, _⟩ => ⟨S64x82206, .f32⟩
  | .hbm, ⟨13, _⟩ => ⟨S64x82206, .f32⟩
  | .hbm, ⟨14, _⟩ => ⟨S1x82206, .f32⟩
  | .hbm, ⟨15, _⟩ => ⟨S64x82206, .f32⟩
  | .hbm, ⟨16, _⟩ => ⟨S64x82206, .f32⟩
  | .hbm, ⟨17, _⟩ => ⟨S_, .f32⟩
  | .hbm, ⟨18, _⟩ => ⟨S64x82206, .f32⟩
  | .hbm, ⟨19, _⟩ => ⟨S64x82206, .f32⟩
  | .hbm, ⟨20, _⟩ => ⟨S1x122186, .f32⟩
  | .hbm, ⟨21, _⟩ => ⟨S64x122186, .f32⟩
  | .hbm, ⟨22, _⟩ => ⟨S64x122186, .f32⟩
  | .hbm, ⟨23, _⟩ => ⟨S1x122186, .f32⟩
  | .hbm, ⟨24, _⟩ => ⟨S64x122186, .f32⟩
  | .hbm, ⟨25, _⟩ => ⟨S64x122186, .f32⟩
  | .hbm, ⟨26, _⟩ => ⟨S_, .f32⟩
  | .hbm, ⟨27, _⟩ => ⟨S64x122186, .f32⟩
  | .hbm, ⟨28, _⟩ => ⟨S64x122186, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  transposes_S82206x1024_S1024x82206_1_0 : S82206x1024.Transposes [1, 0] S1024x82206
  transposes_S122186x1024_S1024x122186_1_0 : S122186x1024.Transposes [1, 0] S1024x122186
  bcast_S82206_S1x82206_1 : S82206.BroadcastsInDim S1x82206 (![1] : Fin 1 → Fin S1x82206.rank)
  bcast_S1x82206_S64x82206_0_1 : S1x82206.BroadcastsInDim S64x82206 (![0, 1] : Fin 2 → Fin S64x82206.rank)
  bcast_S_S64x82206 : S_.BroadcastsInDim S64x82206 (![] : Fin 0 → Fin S64x82206.rank)
  bcast_S122186_S1x122186_1 : S122186.BroadcastsInDim S1x122186 (![1] : Fin 1 → Fin S1x122186.rank)
  bcast_S1x122186_S64x122186_0_1 : S1x122186.BroadcastsInDim S64x122186 (![0, 1] : Fin 2 → Fin S64x122186.rank)
  bcast_S_S64x122186 : S_.BroadcastsInDim S64x122186 (![] : Fin 0 → Fin S64x122186.rank)
  dot_S64x1024_S1024x82206_S64x82206_1_0_0_1_n_n_wf : DotDims.WF S64x1024 S1024x82206 S64x82206 [1] [0] [0] [1] [] []
  dot_S64x1024_S1024x122186_S64x122186_1_0_0_1_n_n_wf : DotDims.WF S64x1024 S1024x122186 S64x122186 [1] [0] [0] [1] [] []

variable [Facts₀]

def dot_S64x1024_S1024x82206_S64x82206_1_0_0_1_n_n : DotDims S64x1024 S1024x82206 S64x82206 where
  lhsContracting := [1]
  rhsContracting := [0]
  lhsNonContracting := [0]
  rhsNonContracting := [1]
  lhsBatch := []
  rhsBatch := []
  wf := dot_S64x1024_S1024x82206_S64x82206_1_0_0_1_n_n_wf
def dot_S64x1024_S1024x122186_S64x122186_1_0_0_1_n_n : DotDims S64x1024 S1024x122186 S64x122186 where
  lhsContracting := [1]
  rhsContracting := [0]
  lhsNonContracting := [0]
  rhsNonContracting := [1]
  lhsBatch := []
  rhsBatch := []
  wf := dot_S64x1024_S1024x122186_S64x122186_1_0_0_1_n_n_wf

class Facts : Prop extends Facts₀ where

variable [Facts]
-- ==== Proof.KData.lean ====
/-
  The proof data of the two pallas_calls, at any float instance. Each call streams a table `emb` of N rows in
  blocks of 2048 rows past the resident 64 x 1024 matrix `claim`, with the matching 2048-lane pieces of the
  per-column scale `w` and shift `b`, and writes the 64 x 2048 block of results. N is no multiple of 2048, so the
  last block of `emb`, `w`, `b` and of the result overhangs its array: the fetch fills only the leading rows
  (lanes) of the staging buffer and the write-back moves only those. What a staging buffer holds past the
  array's end is never named; the data below fill it with the zero word.
-/
import proofs.«118448_j74448963109447_1_alg».proof.Proof.Gen.Kernel.Launch
import proofs.«118448_j74448963109447_1_alg».proof.Proof.Gen.Kernel.Skeleton
import proofs.«118448_j74448963109447_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

-- the contents of a core's unscoped buffers when a region is entered
variable (V : (c : Dev nD) → (b : Ref sig .tc) → Buf (Elt F) ((c : Thread nD τ).loc b))

/-- The filler past an array's end. -/
abbrev zw : Elt F .f32 := Scalar.ofBits .f32 0#32

/-- The output window of either call: the one window whose contents a frame never reads. -/
abbrev outOnly : Fin 5 → Bool := fun | 0 => false | 1 => false | 2 => false | 3 => false | 4 => true | ⟨_ + 5, h⟩ => absurd h (Nat.not_lt.2 (Nat.le_add_left _ _))

/-! ## The first call: the text table (41 points) -/

/-- Window `w`'s block at point `t`: the part of its array inside the array's bounds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- `claim`, whole at every point. -/
def cblk0 (c : Dev nD) (t : Fin cfg0.N) : S64x1024.Idx → Elt F .f32 := iblk0 V c 0 t
/-- Rows 2048 t .. of `emb`, zero past the table's end. -/
def eblk0 (c : Dev nD) (t : Fin cfg0.N) : S2048x1024.Idx → Elt F .f32 := win0_1.fill (grid0.coords t) (fun _ => zw) (iblk0 V c 1 t)
/-- Lanes 2048 t .. of `w`, zero past its end. -/
def wblk0 (c : Dev nD) (t : Fin cfg0.N) : S1x2048.Idx → Elt F .f32 := win0_2.fill (grid0.coords t) (fun _ => zw) (iblk0 V c 2 t)
/-- Lanes 2048 t .. of `b`, zero past its end. -/
def bblk0 (c : Dev nD) (t : Fin cfg0.N) : S1x2048.Idx → Elt F .f32 := win0_3.fill (grid0.coords t) (fun _ => zw) (iblk0 V c 3 t)
/-- The body's result on those four. -/
def oblk0 (c : Dev nD) (t : Fin cfg0.N) : S64x2048.Idx → Elt F .f32 := k0_pay1 (cblk0 V c t) (eblk0 V c t) (wblk0 V c t) (bblk0 V c t)

/-- The proof data of the first call on core `c`. -/
def dat0 (c : Dev nD) : Dat τ (Elt F) Unit ℕ (UR sig nD τ) ℕ cfg0 c where
  A w := V c (Pipeline.arrRef spec0 w)
  after w t := match w with
    | ⟨0, _⟩ => cblk0 V c t
    | ⟨1, _⟩ => eblk0 V c t
    | ⟨2, _⟩ => wblk0 V c t
    | ⟨3, _⟩ => bblk0 V c t
    | ⟨4, _⟩ => oblk0 V c t
  Φ _ := Pipeline.ΦA spec0 c
  q _ := fullShare
  owed _ := 0

/-! ## The second call: the image table (60 points) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def cblk1 (c : Dev nD) (t : Fin cfg1.N) : S64x1024.Idx → Elt F .f32 := iblk1 V c 0 t
def eblk1 (c : Dev nD) (t : Fin cfg1.N) : S2048x1024.Idx → Elt F .f32 := win1_1.fill (grid1.coords t) (fun _ => zw) (iblk1 V c 1 t)
def wblk1 (c : Dev nD) (t : Fin cfg1.N) : S1x2048.Idx → Elt F .f32 := win1_2.fill (grid1.coords t) (fun _ => zw) (iblk1 V c 2 t)
def bblk1 (c : Dev nD) (t : Fin cfg1.N) : S1x2048.Idx → Elt F .f32 := win1_3.fill (grid1.coords t) (fun _ => zw) (iblk1 V c 3 t)
def oblk1 (c : Dev nD) (t : Fin cfg1.N) : S64x2048.Idx → Elt F .f32 := k1_pay1 (cblk1 V c t) (eblk1 V c t) (wblk1 V c t) (bblk1 V c t)

/-- The proof data of the second call on core `c`. -/
def dat1 (c : Dev nD) : Dat τ (Elt F) Unit ℕ (UR sig nD τ) ℕ cfg1 c where
  A w := V c (Pipeline.arrRef spec1 w)
  after w t := match w with
    | ⟨0, _⟩ => cblk1 V c t
    | ⟨1, _⟩ => eblk1 V c t
    | ⟨2, _⟩ => wblk1 V c t
    | ⟨3, _⟩ => bblk1 V c t
    | ⟨4, _⟩ => oblk1 V c t
  Φ _ := Pipeline.ΦA spec1 c
  q _ := fullShare
  owed _ := 0

/-! ## What the value of the result's kept part does not depend on

At a float instance where column j of the product reads row j of `emb` only, the part of the result block the
write-back moves is the same whatever the staging buffers of `emb`, `w`, `b` hold past their arrays' ends. -/

def TailFree0 (c : Dev nD) : Prop :=
  ∀ (t : Fin cfg0.N) (d1 : S2048x1024.Idx → Elt F .f32) (d2 d3 : S1x2048.Idx → Elt F .f32),
    win0_4.cut (grid0.coords t) (k0_pay1 (cblk0 V c t) (win0_1.fill (grid0.coords t) d1 (iblk0 V c 1 t))
        (win0_2.fill (grid0.coords t) d2 (iblk0 V c 2 t)) (win0_3.fill (grid0.coords t) d3 (iblk0 V c 3 t)))
      = win0_4.cut (grid0.coords t) (oblk0 V c t)

def TailFree1 (c : Dev nD) : Prop :=
  ∀ (t : Fin cfg1.N) (d1 : S2048x1024.Idx → Elt F .f32) (d2 d3 : S1x2048.Idx → Elt F .f32),
    win1_4.cut (grid1.coords t) (k1_pay1 (cblk1 V c t) (win1_1.fill (grid1.coords t) d1 (iblk1 V c 1 t))
        (win1_2.fill (grid1.coords t) d2 (iblk1 V c 2 t)) (win1_3.fill (grid1.coords t) d3 (iblk1 V c 3 t)))
      = win1_4.cut (grid1.coords t) (oblk1 V c t)

end Cert.Kernel.Hand

end
-- ==== Proof.KBody0.lean ====
/-
  The body obligation of the first call, at any float instance. The body reads its five staging buffers whole (what
  it reads of the result's is unused), and stores max((claim · embᵀ) * w + b, 0) over the whole of the result's.
  `claim`'s buffer holds its block at every point; `emb`'s, `w`'s and `b`'s arrive just fetched — the array's block
  on the part inside the array, anything past it — and the result's arrives at anything, every point writing it back.
  The obligation states the four overhanging windows on the moved part only: the three inputs go back as found, and
  the result's buffer holds the body's value on what it found. With the result window forgotten that is all; with it
  named, the moved part of that value must not depend on what lay past the arrays' ends (`TailFree0`).
-/
import proofs.«118448_j74448963109447_1_alg».proof.Proof.KData
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on whole staging memrefs -/

/-- One store through the whole-shape rectangle at zero offsets leaves its payload, over any contents. -/
private theorem read_store_unit_zero {sg : RefSig} {κ : Kind} {sp : Space} {S : Shape} {e : EltTy}
    (v : View sg κ sp S e) (f : v.ty.Contents (Elt F)) {off : Fin S.rank → Nat} (hoff : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f [(⟨Rect.unit off S.size inb, w⟩ : View.Piece (Elt F) S e)]
    fun y => ⟨_, List.mem_singleton_self _, View.mem_set_unit_zero hoff inb y⟩).trans
    (View.canon_unit_zero hoff inb w)

set_option maxHeartbeats 1000000 in
/-- The body on whole memrefs of the staging shapes, the four inputs' at read contents `Xc`, `Xe`, `Xw`, `Xb` and the
    result's at anything: it runs to the continuation holding the inputs' as they were and the result's at the
    payload of its one store, `k0_pay1 Xc Xe Xw Xb`. Each load is through the whole-shape rectangle at zero offsets
    and reads the contents; the store is through the same rectangle of the result's shape and leaves its payload. -/
theorem sound_kernel0 (c : Dev nD) (E : Set ℕ) (i : grid0.Coords)
    (arg1 : Memref sig .tc .vmem S64x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S64x2048 .f32) (harg5 : arg5.IsWhole)
    (Xc : S64x1024.Idx → Elt F .f32) (Xe : S2048x1024.Idx → Elt F .f32) (Xw Xb : S1x2048.Idx → Elt F .f32)
    (K : PUnit → sProp 𝕄) :
    iprop(owns (c : Thread nD τ) arg1 fullShare Xc ∗ owns (c : Thread nD τ) arg2 fullShare Xe
        ∗ owns (c : Thread nD τ) arg3 fullShare Xw ∗ owns (c : Thread nD τ) arg4 fullShare Xb
        ∗ (∃ d, owns (c : Thread nD τ) arg5 fullShare d)
        ∗ (iprop(owns (c : Thread nD τ) arg1 fullShare Xc ∗ owns (c : Thread nD τ) arg2 fullShare Xe
            ∗ owns (c : Thread nD τ) arg3 fullShare Xw ∗ owns (c : Thread nD τ) arg4 fullShare Xb
            ∗ owns (c : Thread nD τ) arg5 fullShare (k0_pay1 Xc Xe Xw Xb)) -∗ K ⟨⟩))
      ⊢ wp frame (wpE (defs₀ (F := F)) Variants.none c none) E
          (cc0__affine_relu_kernel i arg1 harg1 arg2 harg2 arg3 harg3 arg4 harg4 arg5 harg5) K := by
  simp only [cc0__affine_relu_kernel_eq_skeleton]; unfold cc0__affine_relu_kernel_skel
  unfold owns
  iintro ⟨⟨%fc, %hfc, Hc⟩, ⟨%fe, %hfe, He⟩, ⟨%fw, %hfw, Hw⟩, ⟨%fb, %hfb, Hb⟩, ⟨%dd, %fo, -, Ho⟩, Hk⟩
  subst hfc hfe hfw hfb
  sl_exec
  sl_step
  iapply Hk
  have hz : (![0, 0] : Fin 2 → Nat) = fun _ => 0 := funext fun a => by fin_cases a <;> rfl
  have hc : View.readAt (Elt F) arg1.view (Rect.unit ![0, 0] S64x1024.size inb_S64x1024_S64x1024_0_0).toLoadRect fc
      = View.read (Elt F) arg1.view fc := View.ld_unit_zero (S := S64x1024) hz _ _
  have he : View.readAt (Elt F) arg2.view (Rect.unit ![0, 0] S2048x1024.size inb_S2048x1024_S2048x1024_0_0).toLoadRect fe
      = View.read (Elt F) arg2.view fe := View.ld_unit_zero (S := S2048x1024) hz _ _
  have hw : View.readAt (Elt F) arg3.view (Rect.unit ![0, 0] S1x2048.size inb_S1x2048_S1x2048_0_0).toLoadRect fw
      = View.read (Elt F) arg3.view fw := View.ld_unit_zero (S := S1x2048) hz _ _
  have hb : View.readAt (Elt F) arg4.view (Rect.unit ![0, 0] S1x2048.size inb_S1x2048_S1x2048_0_0).toLoadRect fb
      = View.read (Elt F) arg4.view fb := View.ld_unit_zero (S := S1x2048) hz _ _
  isplitl [Hc]
  · iexists fc; isplitr; · ipureintro; rfl
    iexact Hc
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact Ho
  ipureintro
  exact (read_store_unit_zero (S := S64x2048) _ _ hz _ _).trans (congr (congr (congr (congrArg k0_pay1 hc) he) hw) hb)

variable (V : (c : Dev nD) → (b : Ref sig .tc) → Buf (Elt F) ((c : Thread nD τ).loc b))

/-! ## What the staging buffers hold when the body runs, and after -/

/-- What the proof data say each buffer holds after the body, window by window. -/
theorem after0_0 (c : Dev nD) (t : Fin cfg0.N) : (dat0 V c).after 0 t = cblk0 V c t := by dsimp only [dat0]
theorem after0_1 (c : Dev nD) (t : Fin cfg0.N) : (dat0 V c).after 1 t = eblk0 V c t := by dsimp only [dat0]
theorem after0_2 (c : Dev nD) (t : Fin cfg0.N) : (dat0 V c).after 2 t = wblk0 V c t := by dsimp only [dat0]
theorem after0_3 (c : Dev nD) (t : Fin cfg0.N) : (dat0 V c).after 3 t = bblk0 V c t := by dsimp only [dat0]
theorem after0_4 (c : Dev nD) (t : Fin cfg0.N) : (dat0 V c).after 4 t = oblk0 V c t := by dsimp only [dat0]

/-- `claim`'s buffer holds its block at every point, fetched there or not: its block index never moves, the window is
    uncut, and the body leaves the block in place. -/
theorem before0_0 (c : Dev nD) (t : Fin cfg0.N) (d) : (dat0 V c).before 0 t d = cblk0 V c t :=
  ((dat0 V c).before_in_eq_fetched 0 rfl (fun _ => rfl) (fun _ _ _ => rfl)
    (fun t => by rw [after0_0]; unfold cblk0 iblk0 Dat.blockOf; rfl) t d).trans
    (by unfold Dat.fetched Dat.blockOf cblk0 iblk0; rfl)

/-- `emb`'s, `w`'s and `b`'s buffers are fetched at every point: each holds the array's block on the part inside the
    array and what it held, `d`, past it. -/
theorem before0_1 (c : Dev nD) (t : Fin cfg0.N) (d) :
    (dat0 V c).before 1 t d = win0_1.fill (grid0.coords t) d (iblk0 V c 1 t) := by
  unfold Dat.before; rw [if_pos (fetch0_1 t)]; rfl

theorem before0_2 (c : Dev nD) (t : Fin cfg0.N) (d) :
    (dat0 V c).before 2 t d = win0_2.fill (grid0.coords t) d (iblk0 V c 2 t) := by
  unfold Dat.before; rw [if_pos (fetch0_2 t)]; rfl

theorem before0_3 (c : Dev nD) (t : Fin cfg0.N) (d) :
    (dat0 V c).before 3 t d = win0_3.fill (grid0.coords t) d (iblk0 V c 3 t) := by
  unfold Dat.before; rw [if_pos (fetch0_3 t)]; rfl

/-- The result's buffer is written back at every point, so the body finds it at contents nothing names. -/
theorem before0_4 (c : Dev nD) (t : Fin cfg0.N) (d) : (dat0 V c).before 4 t d = d :=
  (dat0 V c).before_out_reset 4 rfl t (by
    by_cases ht : t.val = 0
    · exact .inl ht
    · exact .inr ⟨ht, flush0_4 _⟩) d

/-- Contents of the result's staging buffer that agree with `Y` on the part the write-back moves are `Y` there, filled
    out with themselves. -/
theorem owns_kept0_4 (c : Dev nD) (t : Fin cfg0.N) (R Y : S64x2048.Idx → Elt F .f32)
    (hcut : win0_4.cut (grid0.coords t) R = win0_4.cut (grid0.coords t) Y) :
    owns (c : Thread nD τ) (st0_4 t) fullShare R ⊢
      (iprop(∃ d, owns (c : Thread nD τ) (st0_4 t) fullShare
        (win0_4.fill (grid0.coords t) d (win0_4.cut (grid0.coords t) Y))) : sProp 𝕄) := by
  iintro H; iexists R
  rw [win0_4.fill_congr_cut (grid0.coords t) hcut]
  try iexact H

/-- The obligation with the result window forgotten: the inputs' buffers are handed back as found, which on the moved
    parts are the proof data's blocks; of the result's buffer nothing is stated. -/
theorem body_obligation0_fgt (c : Dev nD) :
    BodyObligationLoose (dat0 (F := F) V c) (defs₀ (F := F)) Variants.none () Set.univ outOnly := fun t => by
  rw [bigSep_W0, bigSep_W0]
  simp only
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%dc, Hc⟩, ⟨%de, He⟩, ⟨%dw, Hw⟩, ⟨%db, Hb⟩, ⟨%X, HX⟩⟩
  rw [before0_0 V c t dc, before0_1 V c t de, before0_2 V c t dw, before0_3 V c t db]
  iapply (sound_kernel0 (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (cblk0 V c t) (win0_1.fill (grid0.coords t) de (iblk0 V c 1 t)) (win0_2.fill (grid0.coords t) dw (iblk0 V c 2 t))
    (win0_3.fill (grid0.coords t) db (iblk0 V c 3 t)) _)
  isplitl [Hc]; · iexact Hc
  isplitl [He]; · iexact He
  isplitl [Hw]; · iexact Hw
  isplitl [Hb]; · iexact Hb
  isplitl [HX]; · iexists X; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage0_1 (cfg0.slots t 1)) fullShare
      (win0_1.fill (grid0.coords t) de (win0_1.cut (grid0.coords t) (eblk0 V c t)))
    rw [show win0_1.cut (grid0.coords t) (eblk0 V c t) = iblk0 V c 1 t from win0_1.cut_fill _ _ _]
  isplitl [Hw]
  · iexists dw
    change _ ⊢ owns (c : Thread nD τ) (stage0_2 (cfg0.slots t 2)) fullShare
      (win0_2.fill (grid0.coords t) dw (win0_2.cut (grid0.coords t) (wblk0 V c t)))
    rw [show win0_2.cut (grid0.coords t) (wblk0 V c t) = iblk0 V c 2 t from win0_2.cut_fill _ _ _]
  isplitl [Hb]
  · iexists db
    change _ ⊢ owns (c : Thread nD τ) (stage0_3 (cfg0.slots t 3)) fullShare
      (win0_3.fill (grid0.coords t) db (win0_3.cut (grid0.coords t) (bblk0 V c t)))
    rw [show win0_3.cut (grid0.coords t) (bblk0 V c t) = iblk0 V c 3 t from win0_3.cut_fill _ _ _]
  · iexists _; iexact HX

/-- The obligation with the result window named: as above, and the result's buffer holds the body's value on the
    inputs' buffers as found, whose moved part is the proof data's by `TailFree0`. -/
theorem body_obligation0_of (c : Dev nD) (h : TailFree0 V c) :
    BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%dc, Hc⟩, ⟨%de, He⟩, ⟨%dw, Hw⟩, ⟨%db, Hb⟩, ⟨%dx, HX⟩⟩
  rw [before0_0 V c t dc, before0_1 V c t de, before0_2 V c t dw, before0_3 V c t db, before0_4 V c t dx]
  iapply (sound_kernel0 (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (cblk0 V c t) (win0_1.fill (grid0.coords t) de (iblk0 V c 1 t)) (win0_2.fill (grid0.coords t) dw (iblk0 V c 2 t))
    (win0_3.fill (grid0.coords t) db (iblk0 V c 3 t)) _)
  isplitl [Hc]; · iexact Hc
  isplitl [He]; · iexact He
  isplitl [Hw]; · iexact Hw
  isplitl [Hb]; · iexact Hb
  isplitl [HX]; · iexists dx; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage0_1 (cfg0.slots t 1)) fullShare
      (win0_1.fill (grid0.coords t) de (win0_1.cut (grid0.coords t) (eblk0 V c t)))
    rw [show win0_1.cut (grid0.coords t) (eblk0 V c t) = iblk0 V c 1 t from win0_1.cut_fill _ _ _]
  isplitl [Hw]
  · iexists dw
    change _ ⊢ owns (c : Thread nD τ) (stage0_2 (cfg0.slots t 2)) fullShare
      (win0_2.fill (grid0.coords t) dw (win0_2.cut (grid0.coords t) (wblk0 V c t)))
    rw [show win0_2.cut (grid0.coords t) (wblk0 V c t) = iblk0 V c 2 t from win0_2.cut_fill _ _ _]
  isplitl [Hb]
  · iexists db
    change _ ⊢ owns (c : Thread nD τ) (stage0_3 (cfg0.slots t 3)) fullShare
      (win0_3.fill (grid0.coords t) db (win0_3.cut (grid0.coords t) (bblk0 V c t)))
    rw [show win0_3.cut (grid0.coords t) (bblk0 V c t) = iblk0 V c 3 t from win0_3.cut_fill _ _ _]
  · iapply (owns_kept0_4 (F := F) c t _ (oblk0 V c t) (h t de dw db))
    iexact HX

end Cert.Kernel.Hand

end
-- ==== Proof.KBody1.lean ====
/-
  The body obligation of the second call, at any float instance. The body reads its five staging buffers whole (what
  it reads of the result's is unused), and stores max((claim · embᵀ) * w + b, 0) over the whole of the result's.
  `claim`'s buffer holds its block at every point; `emb`'s, `w`'s and `b`'s arrive just fetched — the array's block
  on the part inside the array, anything past it — and the result's arrives at anything, every point writing it back.
  The obligation states the four overhanging windows on the moved part only: the three inputs go back as found, and
  the result's buffer holds the body's value on what it found. With the result window forgotten that is all; with it
  named, the moved part of that value must not depend on what lay past the arrays' ends (`TailFree1`).
-/
import proofs.«118448_j74448963109447_1_alg».proof.Proof.KData
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on whole staging memrefs -/

/-- One store through the whole-shape rectangle at zero offsets leaves its payload, over any contents. -/
private theorem read_store_unit_zero {sg : RefSig} {κ : Kind} {sp : Space} {S : Shape} {e : EltTy}
    (v : View sg κ sp S e) (f : v.ty.Contents (Elt F)) {off : Fin S.rank → Nat} (hoff : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f [(⟨Rect.unit off S.size inb, w⟩ : View.Piece (Elt F) S e)]
    fun y => ⟨_, List.mem_singleton_self _, View.mem_set_unit_zero hoff inb y⟩).trans
    (View.canon_unit_zero hoff inb w)

set_option maxHeartbeats 1000000 in
/-- The body on whole memrefs of the staging shapes, the four inputs' at read contents `Xc`, `Xe`, `Xw`, `Xb` and the
    result's at anything: it runs to the continuation holding the inputs' as they were and the result's at the
    payload of its one store, `k1_pay1 Xc Xe Xw Xb`. Each load is through the whole-shape rectangle at zero offsets
    and reads the contents; the store is through the same rectangle of the result's shape and leaves its payload. -/
theorem sound_kernel1 (c : Dev nD) (E : Set ℕ) (i : grid1.Coords)
    (arg1 : Memref sig .tc .vmem S64x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S64x2048 .f32) (harg5 : arg5.IsWhole)
    (Xc : S64x1024.Idx → Elt F .f32) (Xe : S2048x1024.Idx → Elt F .f32) (Xw Xb : S1x2048.Idx → Elt F .f32)
    (K : PUnit → sProp 𝕄) :
    iprop(owns (c : Thread nD τ) arg1 fullShare Xc ∗ owns (c : Thread nD τ) arg2 fullShare Xe
        ∗ owns (c : Thread nD τ) arg3 fullShare Xw ∗ owns (c : Thread nD τ) arg4 fullShare Xb
        ∗ (∃ d, owns (c : Thread nD τ) arg5 fullShare d)
        ∗ (iprop(owns (c : Thread nD τ) arg1 fullShare Xc ∗ owns (c : Thread nD τ) arg2 fullShare Xe
            ∗ owns (c : Thread nD τ) arg3 fullShare Xw ∗ owns (c : Thread nD τ) arg4 fullShare Xb
            ∗ owns (c : Thread nD τ) arg5 fullShare (k1_pay1 Xc Xe Xw Xb)) -∗ K ⟨⟩))
      ⊢ wp frame (wpE (defs₀ (F := F)) Variants.none c none) E
          (cc1__affine_relu_kernel i arg1 harg1 arg2 harg2 arg3 harg3 arg4 harg4 arg5 harg5) K := by
  simp only [cc1__affine_relu_kernel_eq_skeleton]; unfold cc1__affine_relu_kernel_skel
  unfold owns
  iintro ⟨⟨%fc, %hfc, Hc⟩, ⟨%fe, %hfe, He⟩, ⟨%fw, %hfw, Hw⟩, ⟨%fb, %hfb, Hb⟩, ⟨%dd, %fo, -, Ho⟩, Hk⟩
  subst hfc hfe hfw hfb
  sl_exec
  sl_step
  iapply Hk
  have hz : (![0, 0] : Fin 2 → Nat) = fun _ => 0 := funext fun a => by fin_cases a <;> rfl
  have hc : View.readAt (Elt F) arg1.view (Rect.unit ![0, 0] S64x1024.size inb_S64x1024_S64x1024_0_0).toLoadRect fc
      = View.read (Elt F) arg1.view fc := View.ld_unit_zero (S := S64x1024) hz _ _
  have he : View.readAt (Elt F) arg2.view (Rect.unit ![0, 0] S2048x1024.size inb_S2048x1024_S2048x1024_0_0).toLoadRect fe
      = View.read (Elt F) arg2.view fe := View.ld_unit_zero (S := S2048x1024) hz _ _
  have hw : View.readAt (Elt F) arg3.view (Rect.unit ![0, 0] S1x2048.size inb_S1x2048_S1x2048_0_0).toLoadRect fw
      = View.read (Elt F) arg3.view fw := View.ld_unit_zero (S := S1x2048) hz _ _
  have hb : View.readAt (Elt F) arg4.view (Rect.unit ![0, 0] S1x2048.size inb_S1x2048_S1x2048_0_0).toLoadRect fb
      = View.read (Elt F) arg4.view fb := View.ld_unit_zero (S := S1x2048) hz _ _
  isplitl [Hc]
  · iexists fc; isplitr; · ipureintro; rfl
    iexact Hc
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact Ho
  ipureintro
  exact (read_store_unit_zero (S := S64x2048) _ _ hz _ _).trans (congr (congr (congr (congrArg k1_pay1 hc) he) hw) hb)

variable (V : (c : Dev nD) → (b : Ref sig .tc) → Buf (Elt F) ((c : Thread nD τ).loc b))

/-! ## What the staging buffers hold when the body runs, and after -/

/-- What the proof data say each buffer holds after the body, window by window. -/
theorem after1_0 (c : Dev nD) (t : Fin cfg1.N) : (dat1 V c).after 0 t = cblk1 V c t := by dsimp only [dat1]
theorem after1_1 (c : Dev nD) (t : Fin cfg1.N) : (dat1 V c).after 1 t = eblk1 V c t := by dsimp only [dat1]
theorem after1_2 (c : Dev nD) (t : Fin cfg1.N) : (dat1 V c).after 2 t = wblk1 V c t := by dsimp only [dat1]
theorem after1_3 (c : Dev nD) (t : Fin cfg1.N) : (dat1 V c).after 3 t = bblk1 V c t := by dsimp only [dat1]
theorem after1_4 (c : Dev nD) (t : Fin cfg1.N) : (dat1 V c).after 4 t = oblk1 V c t := by dsimp only [dat1]

/-- `claim`'s buffer holds its block at every point, fetched there or not: its block index never moves, the window is
    uncut, and the body leaves the block in place. -/
theorem before1_0 (c : Dev nD) (t : Fin cfg1.N) (d) : (dat1 V c).before 0 t d = cblk1 V c t :=
  ((dat1 V c).before_in_eq_fetched 0 rfl (fun _ => rfl) (fun _ _ _ => rfl)
    (fun t => by rw [after1_0]; unfold cblk1 iblk1 Dat.blockOf; rfl) t d).trans
    (by unfold Dat.fetched Dat.blockOf cblk1 iblk1; rfl)

/-- `emb`'s, `w`'s and `b`'s buffers are fetched at every point: each holds the array's block on the part inside the
    array and what it held, `d`, past it. -/
theorem before1_1 (c : Dev nD) (t : Fin cfg1.N) (d) :
    (dat1 V c).before 1 t d = win1_1.fill (grid1.coords t) d (iblk1 V c 1 t) := by
  unfold Dat.before; rw [if_pos (fetch1_1 t)]; rfl

theorem before1_2 (c : Dev nD) (t : Fin cfg1.N) (d) :
    (dat1 V c).before 2 t d = win1_2.fill (grid1.coords t) d (iblk1 V c 2 t) := by
  unfold Dat.before; rw [if_pos (fetch1_2 t)]; rfl

theorem before1_3 (c : Dev nD) (t : Fin cfg1.N) (d) :
    (dat1 V c).before 3 t d = win1_3.fill (grid1.coords t) d (iblk1 V c 3 t) := by
  unfold Dat.before; rw [if_pos (fetch1_3 t)]; rfl

/-- The result's buffer is written back at every point, so the body finds it at contents nothing names. -/
theorem before1_4 (c : Dev nD) (t : Fin cfg1.N) (d) : (dat1 V c).before 4 t d = d :=
  (dat1 V c).before_out_reset 4 rfl t (by
    by_cases ht : t.val = 0
    · exact .inl ht
    · exact .inr ⟨ht, flush1_4 _⟩) d

/-- Contents of the result's staging buffer that agree with `Y` on the part the write-back moves are `Y` there, filled
    out with themselves. -/
theorem owns_kept1_4 (c : Dev nD) (t : Fin cfg1.N) (R Y : S64x2048.Idx → Elt F .f32)
    (hcut : win1_4.cut (grid1.coords t) R = win1_4.cut (grid1.coords t) Y) :
    owns (c : Thread nD τ) (st1_4 t) fullShare R ⊢
      (iprop(∃ d, owns (c : Thread nD τ) (st1_4 t) fullShare
        (win1_4.fill (grid1.coords t) d (win1_4.cut (grid1.coords t) Y))) : sProp 𝕄) := by
  iintro H; iexists R
  rw [win1_4.fill_congr_cut (grid1.coords t) hcut]
  try iexact H

/-- The obligation with the result window forgotten: the inputs' buffers are handed back as found, which on the moved
    parts are the proof data's blocks; of the result's buffer nothing is stated. -/
theorem body_obligation1_fgt (c : Dev nD) :
    BodyObligationLoose (dat1 (F := F) V c) (defs₀ (F := F)) Variants.none () Set.univ outOnly := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%dc, Hc⟩, ⟨%de, He⟩, ⟨%dw, Hw⟩, ⟨%db, Hb⟩, ⟨%X, HX⟩⟩
  rw [before1_0 V c t dc, before1_1 V c t de, before1_2 V c t dw, before1_3 V c t db]
  iapply (sound_kernel1 (F := F) c Set.univ (grid1.coords t) (st1_0 t) (hstage1_0 ((cfg1.slots t 0).cast nbuf1_0))
    (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4))
    (cblk1 V c t) (win1_1.fill (grid1.coords t) de (iblk1 V c 1 t)) (win1_2.fill (grid1.coords t) dw (iblk1 V c 2 t))
    (win1_3.fill (grid1.coords t) db (iblk1 V c 3 t)) _)
  isplitl [Hc]; · iexact Hc
  isplitl [He]; · iexact He
  isplitl [Hw]; · iexact Hw
  isplitl [Hb]; · iexact Hb
  isplitl [HX]; · iexists X; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage1_1 (cfg1.slots t 1)) fullShare
      (win1_1.fill (grid1.coords t) de (win1_1.cut (grid1.coords t) (eblk1 V c t)))
    rw [show win1_1.cut (grid1.coords t) (eblk1 V c t) = iblk1 V c 1 t from win1_1.cut_fill _ _ _]
  isplitl [Hw]
  · iexists dw
    change _ ⊢ owns (c : Thread nD τ) (stage1_2 (cfg1.slots t 2)) fullShare
      (win1_2.fill (grid1.coords t) dw (win1_2.cut (grid1.coords t) (wblk1 V c t)))
    rw [show win1_2.cut (grid1.coords t) (wblk1 V c t) = iblk1 V c 2 t from win1_2.cut_fill _ _ _]
  isplitl [Hb]
  · iexists db
    change _ ⊢ owns (c : Thread nD τ) (stage1_3 (cfg1.slots t 3)) fullShare
      (win1_3.fill (grid1.coords t) db (win1_3.cut (grid1.coords t) (bblk1 V c t)))
    rw [show win1_3.cut (grid1.coords t) (bblk1 V c t) = iblk1 V c 3 t from win1_3.cut_fill _ _ _]
  · iexists _; iexact HX

/-- The obligation with the result window named: as above, and the result's buffer holds the body's value on the
    inputs' buffers as found, whose moved part is the proof data's by `TailFree1`. -/
theorem body_obligation1_of (c : Dev nD) (h : TailFree1 V c) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%dc, Hc⟩, ⟨%de, He⟩, ⟨%dw, Hw⟩, ⟨%db, Hb⟩, ⟨%dx, HX⟩⟩
  rw [before1_0 V c t dc, before1_1 V c t de, before1_2 V c t dw, before1_3 V c t db, before1_4 V c t dx]
  iapply (sound_kernel1 (F := F) c Set.univ (grid1.coords t) (st1_0 t) (hstage1_0 ((cfg1.slots t 0).cast nbuf1_0))
    (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4))
    (cblk1 V c t) (win1_1.fill (grid1.coords t) de (iblk1 V c 1 t)) (win1_2.fill (grid1.coords t) dw (iblk1 V c 2 t))
    (win1_3.fill (grid1.coords t) db (iblk1 V c 3 t)) _)
  isplitl [Hc]; · iexact Hc
  isplitl [He]; · iexact He
  isplitl [Hw]; · iexact Hw
  isplitl [Hb]; · iexact Hb
  isplitl [HX]; · iexists dx; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage1_1 (cfg1.slots t 1)) fullShare
      (win1_1.fill (grid1.coords t) de (win1_1.cut (grid1.coords t) (eblk1 V c t)))
    rw [show win1_1.cut (grid1.coords t) (eblk1 V c t) = iblk1 V c 1 t from win1_1.cut_fill _ _ _]
  isplitl [Hw]
  · iexists dw
    change _ ⊢ owns (c : Thread nD τ) (stage1_2 (cfg1.slots t 2)) fullShare
      (win1_2.fill (grid1.coords t) dw (win1_2.cut (grid1.coords t) (wblk1 V c t)))
    rw [show win1_2.cut (grid1.coords t) (wblk1 V c t) = iblk1 V c 2 t from win1_2.cut_fill _ _ _]
  isplitl [Hb]
  · iexists db
    change _ ⊢ owns (c : Thread nD τ) (stage1_3 (cfg1.slots t 3)) fullShare
      (win1_3.fill (grid1.coords t) db (win1_3.cut (grid1.coords t) (bblk1 V c t)))
    rw [show win1_3.cut (grid1.coords t) (bblk1 V c t) = iblk1 V c 3 t from win1_3.cut_fill _ _ _]
  · iapply (owns_kept1_4 (F := F) c t _ (oblk1 V c t) (h t de dw db))
    iexact HX

end Cert.Kernel.Hand

end
-- ==== Proof.KRun.lean ====
/-
  The frame at any float instance, in particular at the bit level, where the product of a call's last point takes
  in the rows the staging buffer holds past the table's end, so that the call's result array ends at contents nothing
  names. The run therefore carries each result array at SOME contents: the proof data say nothing of what the body
  leaves in the result window, the state after the first call holds the first result existentially through the two
  reshapes and the second call (neither reads it), and the second call's arrays at its entry do not depend on it.
  The arguments are written by no call and no host operation, so they end as launched.
-/
import proofs.«118448_j74448963109447_1_alg».proof.Proof.KBody0
import proofs.«118448_j74448963109447_1_alg».proof.Proof.KBody1
import proofs.«118448_j74448963109447_1_alg».proof.Proof.Gen.Kernel.Regions
import Idealize.ShloMosaic.Lib.Pipeline.RegionsLoop
import Idealize.ShloMosaic.Lib.Pipeline.FrameSuffix
import Idealize.ShloMosaic.Lib.StableHlo.Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary

The result arrays' contents after a call are not named: the boundary contents are written over unknowns. -/

/-- Unknowns fixed once and for all, for the second call's entry data: none of its arrays reads them. -/
abbrev outs₀ : Outs (F := F) := fun _ r c => m ((c : Thread nD τ).loc r)

/-- The unknowns changed at one index, one reference and one core. -/
def setOut (outs : Outs (F := F)) (n : ℕ) (r : Ref sig .tc) (c : Dev nD) (G : Buf (Elt F) ((c : Thread nD τ).loc r)) : Outs (F := F) :=
  Function.update outs n (Function.update (outs n) r (Function.update (outs n r) c G))

theorem setOut_self (outs : Outs (F := F)) (n : ℕ) (r : Ref sig .tc) (c : Dev nD) (G : Buf (Elt F) ((c : Thread nD τ).loc r)) :
    setOut outs n r c G n r c = G := by
  unfold setOut; rw [Function.update_self, Function.update_self, Function.update_self]

theorem setOut_of_ne (outs : Outs (F := F)) (n n' : ℕ) (h : n' ≠ n) (r : Ref sig .tc) (c : Dev nD) (G : Buf (Elt F) ((c : Thread nD τ).loc r)) :
    setOut outs n r c G n' = outs n' := by
  unfold setOut; rw [Function.update_of_ne h]

/-- The first call's entry contents, read at the TensorCore's references. -/
abbrev E1 : (c : Dev nD) → (b : Ref sig .tc) → Buf (Elt F) ((c : Thread nD τ).loc b) := fun c b => V1 m c b
/-- The second call's entry contents at the fixed unknowns. -/
abbrev E3 : (c : Dev nD) → (b : Ref sig .tc) → Buf (Elt F) ((c : Thread nD τ).loc b) := fun c b => V3 m (outs₀ m) c b

/-- Every pipeline's proof data: the exact data read relationally, the result window forgotten. -/
def rdats : (p : Fin 2) → (c : Dev nD) → Pipeline.RDat τ (Elt F) Unit ℕ (UR sig nD τ) ℕ (Pipeline.pin (pcfgs (F := F)) adm p) c
  | ⟨0, _⟩ => fun c => (dat0 (E1 m) c).toRForget outOnly
  | ⟨1, _⟩ => fun c => (dat1 (E3 m) c).toRForget outOnly

abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The second host stretch, from the first call's exit at some result contents to the second call's entry at them. -/
def hseg2 : Pipeline.HostSeg (Name := ℕ) (U := UR sig nD τ) (pcfgs (F := F)) defs₀ 𝒱₀ L lv where
  prog := StableHlo.seq hostOps1
  pre c := iprop(∃ outs : Outs (F := F), StableHlo.held (c : Thread nD τ) (Pipeline.ucRefs τ sig) (V2 m outs c) ∗ R c)
  post c := iprop(∃ outs : Outs (F := F), StableHlo.held (c : Thread nD τ) (Pipeline.ucRefs τ sig) (V3 m outs c) ∗ R c)
  run c {β} k K := by
    iintro ⟨Hk, Hbd, ⟨%outs, Hpre⟩, Hla⟩
    iapply ((hseg hostOps1 hostOps1_sub hostOps1_fresh (V2 m outs)).run c k K)
    isplitl [Hk]
    · iintro ⟨Hbd, Hpost⟩
      iapply Hk
      isplitl [Hbd]; · iexact Hbd
      iexists outs
      iapply (show ((hseg hostOps1 hostOps1_sub hostOps1_fresh (V2 m outs)).post c : sProp 𝕄)
        ⊢ iprop(StableHlo.held (c : Thread nD τ) (Pipeline.ucRefs τ sig) (V3 m outs c) ∗ R c) from .rfl)
      iexact Hpost
    isplitl [Hbd]; · iexact Hbd
    isplitl [Hpre]
    · iapply (show (iprop(StableHlo.held (c : Thread nD τ) (Pipeline.ucRefs τ sig) (V2 m outs c) ∗ R c) : sProp 𝕄)
        ⊢ (hseg hostOps1 hostOps1_sub hostOps1_fresh (V2 m outs)).pre c from .rfl)
      iexact Hpre
    iexact Hla

/-! ## Arrays out of and back among the unscoped buffers, of relational data -/

/-- The arrays after the write-backs below a point: at some contents they may then hold, all at once. -/
theorem arraysAt_open {cfg : Cfg sig Λ₀} {c : Dev nD} (rd : Pipeline.RDat τ (Elt F) Unit ℕ (UR sig nD τ) ℕ cfg c) (n : Nat) :
    (rd.arraysAt n : sProp 𝕄) ⊢ iprop(∃ G : (w : Fin cfg.W) → Buf (Elt F) ((cfg.win w).arr.view.loc (c : Thread nD τ)),
      ⌜∀ w, rd.ArrAt w n (G w)⌝ ∗ rd.arrays G) := by
  classical
  unfold Pipeline.RDat.arraysAt Pipeline.RDat.arrays
  iintro Ha
  ihave Ha' := (BI.bigSep_exists_pi Finset.univ (fun w G => iprop(⌜rd.ArrAt w n G⌝
      ∗ (cfg.win w).arr.view.loc (c : Thread nD τ) ↦[(cfg.win w).arr.view.set]{rd.share w} G))) $$ Ha
  icases Ha' with ⟨%Gs, Ha⟩
  ihave Ha2 := (BI.bigSep_pure_sep Finset.univ (fun w => rd.ArrAt w n (Gs w))
      (fun w => (cfg.win w).arr.view.loc (c : Thread nD τ) ↦[(cfg.win w).arr.view.set]{rd.share w} Gs w)) $$ Ha
  icases Ha2 with ⟨%hGs, Ha⟩
  iexists Gs
  isplitr
  · ipureintro; exact fun w => hGs w (Finset.mem_univ w)
  iexact Ha

/-- Pipeline `p`'s arrays at contents `G` and the unscoped rest at `V` are the core's unscoped buffers at any
    valuation that has the arrays at `G` and agrees with `V` off them. -/
theorem bufs_of_arrays {p : Fin 2} (hw : Pipeline.WinFacts (Pipeline.pin (pcfgs (F := F)) adm p).spec)
    (harr : ∀ w, ((Pipeline.pin (pcfgs (F := F)) adm p).spec w).arr.IsWhole) (c : Dev nD)
    (rd : (p : Fin 2) → (c : Dev nD) → Pipeline.RDat τ (Elt F) Unit ℕ (UR sig nD τ) ℕ (Pipeline.pin (pcfgs (F := F)) adm p) c)
    (hshare : ∀ w, (rd p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rd p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rd p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## What the second call's arrays hold at its entry does not read the first call's result -/

theorem V3_base (outs : Outs (F := F)) (c : Dev nD) (r : Ref sig .tc) (h1 : r ∉ hostOps1_W) (h2 : r ∉ ([main_v2] : List (Ref sig .tc))) :
    V3 m outs c r = V1 m c r := (V3_of m outs c r h1).trans (V2_of m outs c r h2)

theorem V3_v3 (outs outs' : Outs (F := F)) (c : Dev nD) : V3 m outs c main_v3 = V3 m outs' c main_v3 := by
  show StableHlo.after hostOps1 (V2 m outs c) (Proc.devRef .tc main_v3) = StableHlo.after hostOps1 (V2 m outs' c) (Proc.devRef .tc main_v3)
  after_results
  rw [V2_of m outs c main_arg5 (by decide), V2_of m outs' c main_arg5 (by decide)]

theorem V3_v4 (outs outs' : Outs (F := F)) (c : Dev nD) : V3 m outs c main_v4 = V3 m outs' c main_v4 := by
  show StableHlo.after hostOps1 (V2 m outs c) (Proc.devRef .tc main_v4) = StableHlo.after hostOps1 (V2 m outs' c) (Proc.devRef .tc main_v4)
  after_results
  rw [V2_of m outs c main_arg6 (by decide), V2_of m outs' c main_arg6 (by decide)]

/-- Each array of the second call holds at its entry the same whatever the first call left in its result. -/
theorem V3_arr (outs outs' : Outs (F := F)) (c : Dev nD) (w : Fin cfg1.W) :
    V3 m outs c (Pipeline.arrRef spec1 w) = V3 m outs' c (Pipeline.arrRef spec1 w) := by
  match w with
  | ⟨0, _⟩ => exact (V3_base m outs c main_arg0 (by decide) (by decide)).trans (V3_base m outs' c main_arg0 (by decide) (by decide)).symm
  | ⟨1, _⟩ => exact (V3_base m outs c main_arg2 (by decide) (by decide)).trans (V3_base m outs' c main_arg2 (by decide) (by decide)).symm
  | ⟨2, _⟩ => exact V3_v3 m outs outs' c
  | ⟨3, _⟩ => exact V3_v4 m outs outs' c
  | ⟨4, _⟩ => exact (V3_base m outs c main_v5 (by decide) (by decide)).trans (V3_base m outs' c main_v5 (by decide) (by decide)).symm

/-! ## The first call's exit -/

theorem exit0_arr (c : Dev nD) (G : (w : Fin cfg0.W) → Buf (Elt F) ((cfg0.win w).arr.view.loc (c : Thread nD τ)))
    (hG : ∀ w, (rdats m 0 c).ArrAt w cfg0.N (G w)) (w : Fin cfg0.W) :
    G w = V2 m (setOut (outs₀ m) 2 main_v2 c (G 4)) c (Pipeline.arrRef spec0 w) := by
  match w with
  | ⟨0, _⟩ =>
    have h := hG 0; rw [(rdats m 0 c).ArrAt_in 0 rfl] at h; rw [show G ⟨0, _⟩ = G 0 from rfl, h]
    exact (V2_of m _ c main_arg0 (by decide)).symm
  | ⟨1, _⟩ =>
    have h := hG 1; rw [(rdats m 0 c).ArrAt_in 1 rfl] at h; rw [show G ⟨1, _⟩ = G 1 from rfl, h]
    exact (V2_of m _ c main_arg1 (by decide)).symm
  | ⟨2, _⟩ =>
    have h := hG 2; rw [(rdats m 0 c).ArrAt_in 2 rfl] at h; rw [show G ⟨2, _⟩ = G 2 from rfl, h]
    exact (V2_of m _ c main_v0 (by decide)).symm
  | ⟨3, _⟩ =>
    have h := hG 3; rw [(rdats m 0 c).ArrAt_in 3 rfl] at h; rw [show G ⟨3, _⟩ = G 3 from rfl, h]
    exact (V2_of m _ c main_v1 (by decide)).symm
  | ⟨4, _⟩ =>
    show G 4 = Function.update (V1 m c) (Proc.devRef .tc main_v2) (setOut (outs₀ m) 2 main_v2 c (G 4) 2 main_v2 c) (Proc.devRef .tc main_v2)
    rw [Function.update_self, setOut_self]

theorem exit0_rest (c : Dev nD) (outs : Outs (F := F)) (b : Ref sig .tc) (hb : b ∉ Finset.univ.image (Pipeline.arrRef spec0)) :
    V2 m outs c b = V1 m c b :=
  V2_of m outs c b fun h => hb (by
    rw [List.mem_singleton] at h; subst h
    exact Finset.mem_image.mpr ⟨4, Finset.mem_univ _, rfl⟩)

/-! ## The second call's exit -/

theorem exit1_arr (c : Dev nD) (outs : Outs (F := F)) (G : (w : Fin cfg1.W) → Buf (Elt F) ((cfg1.win w).arr.view.loc (c : Thread nD τ)))
    (hG : ∀ w, (rdats m 1 c).ArrAt w cfg1.N (G w)) (w : Fin cfg1.W) :
    G w = V4 m (setOut outs 4 main_v5 c (G 4)) c (Pipeline.arrRef spec1 w) := by
  match w with
  | ⟨0, _⟩ =>
    have h := hG 0; rw [(rdats m 1 c).ArrAt_in 0 rfl] at h; rw [show G ⟨0, _⟩ = G 0 from rfl, h]
    exact ((V4_of m _ c main_arg0 (by decide)).trans (V3_arr m _ (outs₀ m) c 0)).symm
  | ⟨1, _⟩ =>
    have h := hG 1; rw [(rdats m 1 c).ArrAt_in 1 rfl] at h; rw [show G ⟨1, _⟩ = G 1 from rfl, h]
    exact ((V4_of m _ c main_arg2 (by decide)).trans (V3_arr m _ (outs₀ m) c 1)).symm
  | ⟨2, _⟩ =>
    have h := hG 2; rw [(rdats m 1 c).ArrAt_in 2 rfl] at h; rw [show G ⟨2, _⟩ = G 2 from rfl, h]
    exact ((V4_of m _ c main_v3 (by decide)).trans (V3_arr m _ (outs₀ m) c 2)).symm
  | ⟨3, _⟩ =>
    have h := hG 3; rw [(rdats m 1 c).ArrAt_in 3 rfl] at h; rw [show G ⟨3, _⟩ = G 3 from rfl, h]
    exact ((V4_of m _ c main_v4 (by decide)).trans (V3_arr m _ (outs₀ m) c 3)).symm
  | ⟨4, _⟩ =>
    show G 4 = Function.update (V3 m (setOut outs 4 main_v5 c (G 4)) c) (Proc.devRef .tc main_v5) (setOut outs 4 main_v5 c (G 4) 4 main_v5 c) (Proc.devRef .tc main_v5)
    rw [Function.update_self, setOut_self]

theorem exit1_rest (c : Dev nD) (outs : Outs (F := F)) (G : Buf (Elt F) ((c : Thread nD τ).loc main_v5)) (b : Ref sig .tc)
    (hb : b ∉ Finset.univ.image (Pipeline.arrRef spec1)) :
    V4 m (setOut outs 4 main_v5 c G) c b = V3 m outs c b := by
  refine (V4_of m _ c b fun h => hb (by
    rw [List.mem_singleton] at h; subst h
    exact Finset.mem_image.mpr ⟨4, Finset.mem_univ _, rfl⟩)).trans ?_
  show StableHlo.after hostOps1 (Function.update (V1 m c) (Proc.devRef .tc main_v2) (setOut outs 4 main_v5 c G 2 main_v2 c)) (Proc.devRef .tc b)
    = StableHlo.after hostOps1 (Function.update (V1 m c) (Proc.devRef .tc main_v2) (outs 2 main_v2 c)) (Proc.devRef .tc b)
  rw [setOut_of_ne outs 4 2 (by decide)]

/-! ## The calls as segments -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what is owed: every unscoped buffer at the last boundary's contents, at some result contents. -/
abbrev Tₙ (c : Dev nD) : sProp 𝕄 :=
  iprop(∃ outs : Outs (F := F), StableHlo.held (c : Thread nD τ) (Pipeline.ucRefs τ sig) (V4 m outs c) ∗ ∃ r, prngReg c r)

set_option backward.isDefEq.respectTransparency.types false in
/-- The first call: entered from every unscoped buffer at the contents after the first reshapes, left with its result
    array at some contents and every other buffer as entered. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0_fgt (E1 m) c).toRForget
  hwaits := Pipeline.RDat.hwaits_of_owed_zero _ _ _ _ L lv 0 fun _ _ => rfl
  pre c := iprop(StableHlo.held (c : Thread nD τ) (Pipeline.ucRefs τ sig) (V1 m c) ∗ R c)
  post c := iprop(∃ outs : Outs (F := F), StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_open (rdats m 0 c) cfg0.N) $$ Ha
    icases Ha' with ⟨%G, %hG, Ha⟩
    have hjoin := bufs_of_arrays (p := 0) launch0.win launch0.arr_whole c (rdats m) ((rdats m 0 c).share_full fun _ => rfl)
      (E1 m c) (fun b => V2 m (setOut (outs₀ m) 2 main_v2 c (G 4)) c b) G (exit0_arr m c G hG) (exit0_rest m c _)
    rw [Pipeline.unscopedBufs_held] at hjoin
    imodintro
    iexists (setOut (outs₀ m) 2 main_v2 c (G 4))
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second call: entered from every unscoped buffer at the contents after the next reshapes, whatever the first
    call left in its result; left with its own result array at some contents and every other buffer as entered. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1_fgt (E3 m) c).toRForget
  hwaits := Pipeline.RDat.hwaits_of_owed_zero _ _ _ _ L lv 1 fun _ _ => rfl
  pre c := iprop(∃ outs : Outs (F := F), StableHlo.held (c : Thread nD τ) (Pipeline.ucRefs τ sig) (V3 m outs c) ∗ R c)
  post c := iprop(Tₙ m c ∗ ∃ W, owes (c : Thread nD τ) (0 : CellTallies nD τ sig Unit) W)
  X c := iprop(∃ r, prngReg c r)
  Y c := iprop(∃ r, prngReg c r)
  Z c := iprop(∃ outs : Outs (F := F), Pipeline.unscopedRest (Ix := Unit) (Name := ℕ) (U := UR sig nD τ) (Lvl := ℕ) spec1 c (fun b => V3 m outs c b))
  hentry c := by
    rw [Pipeline.ownSems0_none]
    iintro ⟨⟨%outs, Hub, Hp, HO⟩, -, -⟩
    have hsplit := Pipeline.RDat.arrays_of_unscopedBufs (p := 1) (pcfgs (F := F)) adm (rdats m) launch1.win launch1.arr_whole c
      ((rdats m 1 c).share_full fun _ => rfl) (fun b => V3 m outs c b) fun w => V3_arr m (outs₀ m) outs c w
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists outs; iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, ⟨%outs, Hrest⟩⟩
    ihave Ha' := (arraysAt_open (rdats m 1 c) cfg1.N) $$ Ha
    icases Ha' with ⟨%G, %hG, Ha⟩
    have hjoin := bufs_of_arrays (p := 1) launch1.win launch1.arr_whole c (rdats m) ((rdats m 1 c).share_full fun _ => rfl)
      (fun b => V3 m outs c b) (fun b => V4 m (setOut outs 4 main_v5 c (G 4)) c b) G (exit1_arr m c outs G hG) (exit1_rest m c outs (G 4))
    rw [Pipeline.unscopedBufs_held] at hjoin
    imodintro
    isplitl [Ha Hrest HY]
    · iexists (setOut outs 4 main_v5 c (G 4))
      isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's four segments in order. -/
abbrev segs : List (Pipeline.RDat.Seg (pcfgs (F := F)) adm (rdats m) () defs₀ 𝒱₀ L lv) :=
  [ .host (hseg hostOps0 hostOps0_sub hostOps0_fresh (V0 m)),
    .region (reg0 m),
    .host (hseg2 m),
    .region (reg1 m) ]

theorem main_run (c : Dev nD) : main (F := F) c = Pipeline.RDat.Seg.run (segs m) := (main_chain c).trans (by chain_rfl)

/-- At any float instance every weakly fair execution of @main ends, nothing faulting, with the arguments as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ outs : Outs (F := F), ∀ b ∈ Pipeline.ucRefs τ sig, s.mem (((c : Thread nD τ)).1, b) = V4 m outs c b)
    (hfin := fun c s' => by
      iintro ⟨⟨%outs, Hh, -⟩, HSI⟩
      unfold StableHlo.held
      ihave Hr := (pointsTo_read_all (Pipeline.ucRefs τ sig) (fun b => (((c : Thread nD τ)).1, b)) (V4 m outs c) s') $$ [Hh HSI]
      · isplitl [Hh] <;> iassumption
      icases Hr with ⟨%h, HSI⟩
      imodintro
      isplitr
      · ipureintro; exact ⟨outs, h⟩
      iexact HSI)
    (hQ := fun s h c => by
      obtain ⟨outs, hc⟩ := h c
      exact ⟨(hc _ (mem_uc main_arg0 (by decide))).trans (V4_main_arg0 m outs c),
        (hc _ (mem_uc main_arg1 (by decide))).trans (V4_main_arg1 m outs c),
        (hc _ (mem_uc main_arg2 (by decide))).trans (V4_main_arg2 m outs c),
        (hc _ (mem_uc main_arg3 (by decide))).trans (V4_main_arg3 m outs c),
        (hc _ (mem_uc main_arg4 (by decide))).trans (V4_main_arg4 m outs c),
        (hc _ (mem_uc main_arg5 (by decide))).trans (V4_main_arg5 m outs c),
        (hc _ (mem_uc main_arg6 (by decide))).trans (V4_main_arg6 m outs c)⟩)

end Cert.Kernel.Hand

end
-- ==== Proof.IData.lean ====
/-
  The proof data of the two pallas_calls, at any float instance. Each call streams a table `emb` of N rows in
  blocks of 2048 rows past the resident 64 x 1024 matrix `claim`, with the matching 2048-lane pieces of the
  per-column scale `w` and shift `b`, and writes the 64 x 2048 block of results. N is no multiple of 2048, so the
  last block of `emb`, `w`, `b` and of the result overhangs its array: the fetch fills only the leading rows
  (lanes) of the staging buffer and the write-back moves only those. What a staging buffer holds past the
  array's end is never named; the data below fill it with the zero word.
-/
import proofs.«118448_j74448963109447_1_alg».proof.Proof.Gen.KernelIdeal.Launch
import proofs.«118448_j74448963109447_1_alg».proof.Proof.Gen.KernelIdeal.Skeleton
import proofs.«118448_j74448963109447_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

-- the contents of a core's unscoped buffers when a region is entered
variable (V : (c : Dev nD) → (b : Ref sig .tc) → Buf (Elt F) ((c : Thread nD τ).loc b))

/-- The filler past an array's end. -/
abbrev zw : Elt F .f32 := Scalar.ofBits .f32 0#32

/-- The output window of either call: the one window whose contents a frame never reads. -/
abbrev outOnly : Fin 5 → Bool := fun | 0 => false | 1 => false | 2 => false | 3 => false | 4 => true | ⟨_ + 5, h⟩ => absurd h (Nat.not_lt.2 (Nat.le_add_left _ _))

/-! ## The first call: the text table (41 points) -/

/-- Window `w`'s block at point `t`: the part of its array inside the array's bounds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- `claim`, whole at every point. -/
def cblk0 (c : Dev nD) (t : Fin cfg0.N) : S64x1024.Idx → Elt F .f32 := iblk0 V c 0 t
/-- Rows 2048 t .. of `emb`, zero past the table's end. -/
def eblk0 (c : Dev nD) (t : Fin cfg0.N) : S2048x1024.Idx → Elt F .f32 := win0_1.fill (grid0.coords t) (fun _ => zw) (iblk0 V c 1 t)
/-- Lanes 2048 t .. of `w`, zero past its end. -/
def wblk0 (c : Dev nD) (t : Fin cfg0.N) : S1x2048.Idx → Elt F .f32 := win0_2.fill (grid0.coords t) (fun _ => zw) (iblk0 V c 2 t)
/-- Lanes 2048 t .. of `b`, zero past its end. -/
def bblk0 (c : Dev nD) (t : Fin cfg0.N) : S1x2048.Idx → Elt F .f32 := win0_3.fill (grid0.coords t) (fun _ => zw) (iblk0 V c 3 t)
/-- The body's result on those four. -/
def oblk0 (c : Dev nD) (t : Fin cfg0.N) : S64x2048.Idx → Elt F .f32 := k0_pay1 (cblk0 V c t) (eblk0 V c t) (wblk0 V c t) (bblk0 V c t)

/-- The proof data of the first call on core `c`. -/
def dat0 (c : Dev nD) : Dat τ (Elt F) Unit ℕ (UR sig nD τ) ℕ cfg0 c where
  A w := V c (Pipeline.arrRef spec0 w)
  after w t := match w with
    | ⟨0, _⟩ => cblk0 V c t
    | ⟨1, _⟩ => eblk0 V c t
    | ⟨2, _⟩ => wblk0 V c t
    | ⟨3, _⟩ => bblk0 V c t
    | ⟨4, _⟩ => oblk0 V c t
  Φ _ := Pipeline.ΦA spec0 c
  q _ := fullShare
  owed _ := 0

/-! ## The second call: the image table (60 points) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def cblk1 (c : Dev nD) (t : Fin cfg1.N) : S64x1024.Idx → Elt F .f32 := iblk1 V c 0 t
def eblk1 (c : Dev nD) (t : Fin cfg1.N) : S2048x1024.Idx → Elt F .f32 := win1_1.fill (grid1.coords t) (fun _ => zw) (iblk1 V c 1 t)
def wblk1 (c : Dev nD) (t : Fin cfg1.N) : S1x2048.Idx → Elt F .f32 := win1_2.fill (grid1.coords t) (fun _ => zw) (iblk1 V c 2 t)
def bblk1 (c : Dev nD) (t : Fin cfg1.N) : S1x2048.Idx → Elt F .f32 := win1_3.fill (grid1.coords t) (fun _ => zw) (iblk1 V c 3 t)
def oblk1 (c : Dev nD) (t : Fin cfg1.N) : S64x2048.Idx → Elt F .f32 := k1_pay1 (cblk1 V c t) (eblk1 V c t) (wblk1 V c t) (bblk1 V c t)

/-- The proof data of the second call on core `c`. -/
def dat1 (c : Dev nD) : Dat τ (Elt F) Unit ℕ (UR sig nD τ) ℕ cfg1 c where
  A w := V c (Pipeline.arrRef spec1 w)
  after w t := match w with
    | ⟨0, _⟩ => cblk1 V c t
    | ⟨1, _⟩ => eblk1 V c t
    | ⟨2, _⟩ => wblk1 V c t
    | ⟨3, _⟩ => bblk1 V c t
    | ⟨4, _⟩ => oblk1 V c t
  Φ _ := Pipeline.ΦA spec1 c
  q _ := fullShare
  owed _ := 0

/-! ## What the value of the result's kept part does not depend on

At a float instance where column j of the product reads row j of `emb` only, the part of the result block the
write-back moves is the same whatever the staging buffers of `emb`, `w`, `b` hold past their arrays' ends. -/

def TailFree0 (c : Dev nD) : Prop :=
  ∀ (t : Fin cfg0.N) (d1 : S2048x1024.Idx → Elt F .f32) (d2 d3 : S1x2048.Idx → Elt F .f32),
    win0_4.cut (grid0.coords t) (k0_pay1 (cblk0 V c t) (win0_1.fill (grid0.coords t) d1 (iblk0 V c 1 t))
        (win0_2.fill (grid0.coords t) d2 (iblk0 V c 2 t)) (win0_3.fill (grid0.coords t) d3 (iblk0 V c 3 t)))
      = win0_4.cut (grid0.coords t) (oblk0 V c t)

def TailFree1 (c : Dev nD) : Prop :=
  ∀ (t : Fin cfg1.N) (d1 : S2048x1024.Idx → Elt F .f32) (d2 d3 : S1x2048.Idx → Elt F .f32),
    win1_4.cut (grid1.coords t) (k1_pay1 (cblk1 V c t) (win1_1.fill (grid1.coords t) d1 (iblk1 V c 1 t))
        (win1_2.fill (grid1.coords t) d2 (iblk1 V c 2 t)) (win1_3.fill (grid1.coords t) d3 (iblk1 V c 3 t)))
      = win1_4.cut (grid1.coords t) (oblk1 V c t)

end Cert.KernelIdeal.Hand

end
-- ==== Proof.IBody0.lean ====
/-
  The body obligation of the first call, at any float instance. The body reads its five staging buffers whole (what
  it reads of the result's is unused), and stores max((claim · embᵀ) * w + b, 0) over the whole of the result's.
  `claim`'s buffer holds its block at every point; `emb`'s, `w`'s and `b`'s arrive just fetched — the array's block
  on the part inside the array, anything past it — and the result's arrives at anything, every point writing it back.
  The obligation states the four overhanging windows on the moved part only: the three inputs go back as found, and
  the result's buffer holds the body's value on what it found. With the result window forgotten that is all; with it
  named, the moved part of that value must not depend on what lay past the arrays' ends (`TailFree0`).
-/
import proofs.«118448_j74448963109447_1_alg».proof.Proof.IData
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on whole staging memrefs -/

/-- One store through the whole-shape rectangle at zero offsets leaves its payload, over any contents. -/
private theorem read_store_unit_zero {sg : RefSig} {κ : Kind} {sp : Space} {S : Shape} {e : EltTy}
    (v : View sg κ sp S e) (f : v.ty.Contents (Elt F)) {off : Fin S.rank → Nat} (hoff : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f [(⟨Rect.unit off S.size inb, w⟩ : View.Piece (Elt F) S e)]
    fun y => ⟨_, List.mem_singleton_self _, View.mem_set_unit_zero hoff inb y⟩).trans
    (View.canon_unit_zero hoff inb w)

set_option maxHeartbeats 1000000 in
/-- The body on whole memrefs of the staging shapes, the four inputs' at read contents `Xc`, `Xe`, `Xw`, `Xb` and the
    result's at anything: it runs to the continuation holding the inputs' as they were and the result's at the
    payload of its one store, `k0_pay1 Xc Xe Xw Xb`. Each load is through the whole-shape rectangle at zero offsets
    and reads the contents; the store is through the same rectangle of the result's shape and leaves its payload. -/
theorem sound_kernel0 (c : Dev nD) (E : Set ℕ) (i : grid0.Coords)
    (arg1 : Memref sig .tc .vmem S64x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S64x2048 .f32) (harg5 : arg5.IsWhole)
    (Xc : S64x1024.Idx → Elt F .f32) (Xe : S2048x1024.Idx → Elt F .f32) (Xw Xb : S1x2048.Idx → Elt F .f32)
    (K : PUnit → sProp 𝕄) :
    iprop(owns (c : Thread nD τ) arg1 fullShare Xc ∗ owns (c : Thread nD τ) arg2 fullShare Xe
        ∗ owns (c : Thread nD τ) arg3 fullShare Xw ∗ owns (c : Thread nD τ) arg4 fullShare Xb
        ∗ (∃ d, owns (c : Thread nD τ) arg5 fullShare d)
        ∗ (iprop(owns (c : Thread nD τ) arg1 fullShare Xc ∗ owns (c : Thread nD τ) arg2 fullShare Xe
            ∗ owns (c : Thread nD τ) arg3 fullShare Xw ∗ owns (c : Thread nD τ) arg4 fullShare Xb
            ∗ owns (c : Thread nD τ) arg5 fullShare (k0_pay1 Xc Xe Xw Xb)) -∗ K ⟨⟩))
      ⊢ wp frame (wpE (defs₀ (F := F)) Variants.none c none) E
          (cc0__affine_relu_kernel i arg1 harg1 arg2 harg2 arg3 harg3 arg4 harg4 arg5 harg5) K := by
  simp only [cc0__affine_relu_kernel_eq_skeleton]; unfold cc0__affine_relu_kernel_skel
  unfold owns
  iintro ⟨⟨%fc, %hfc, Hc⟩, ⟨%fe, %hfe, He⟩, ⟨%fw, %hfw, Hw⟩, ⟨%fb, %hfb, Hb⟩, ⟨%dd, %fo, -, Ho⟩, Hk⟩
  subst hfc hfe hfw hfb
  sl_exec
  sl_step
  iapply Hk
  have hz : (![0, 0] : Fin 2 → Nat) = fun _ => 0 := funext fun a => by fin_cases a <;> rfl
  have hc : View.readAt (Elt F) arg1.view (Rect.unit ![0, 0] S64x1024.size inb_S64x1024_S64x1024_0_0).toLoadRect fc
      = View.read (Elt F) arg1.view fc := View.ld_unit_zero (S := S64x1024) hz _ _
  have he : View.readAt (Elt F) arg2.view (Rect.unit ![0, 0] S2048x1024.size inb_S2048x1024_S2048x1024_0_0).toLoadRect fe
      = View.read (Elt F) arg2.view fe := View.ld_unit_zero (S := S2048x1024) hz _ _
  have hw : View.readAt (Elt F) arg3.view (Rect.unit ![0, 0] S1x2048.size inb_S1x2048_S1x2048_0_0).toLoadRect fw
      = View.read (Elt F) arg3.view fw := View.ld_unit_zero (S := S1x2048) hz _ _
  have hb : View.readAt (Elt F) arg4.view (Rect.unit ![0, 0] S1x2048.size inb_S1x2048_S1x2048_0_0).toLoadRect fb
      = View.read (Elt F) arg4.view fb := View.ld_unit_zero (S := S1x2048) hz _ _
  isplitl [Hc]
  · iexists fc; isplitr; · ipureintro; rfl
    iexact Hc
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact Ho
  ipureintro
  exact (read_store_unit_zero (S := S64x2048) _ _ hz _ _).trans (congr (congr (congr (congrArg k0_pay1 hc) he) hw) hb)

variable (V : (c : Dev nD) → (b : Ref sig .tc) → Buf (Elt F) ((c : Thread nD τ).loc b))

/-! ## What the staging buffers hold when the body runs, and after -/

/-- What the proof data say each buffer holds after the body, window by window. -/
theorem after0_0 (c : Dev nD) (t : Fin cfg0.N) : (dat0 V c).after 0 t = cblk0 V c t := by dsimp only [dat0]
theorem after0_1 (c : Dev nD) (t : Fin cfg0.N) : (dat0 V c).after 1 t = eblk0 V c t := by dsimp only [dat0]
theorem after0_2 (c : Dev nD) (t : Fin cfg0.N) : (dat0 V c).after 2 t = wblk0 V c t := by dsimp only [dat0]
theorem after0_3 (c : Dev nD) (t : Fin cfg0.N) : (dat0 V c).after 3 t = bblk0 V c t := by dsimp only [dat0]
theorem after0_4 (c : Dev nD) (t : Fin cfg0.N) : (dat0 V c).after 4 t = oblk0 V c t := by dsimp only [dat0]

/-- `claim`'s buffer holds its block at every point, fetched there or not: its block index never moves, the window is
    uncut, and the body leaves the block in place. -/
theorem before0_0 (c : Dev nD) (t : Fin cfg0.N) (d) : (dat0 V c).before 0 t d = cblk0 V c t :=
  ((dat0 V c).before_in_eq_fetched 0 rfl (fun _ => rfl) (fun _ _ _ => rfl)
    (fun t => by rw [after0_0]; unfold cblk0 iblk0 Dat.blockOf; rfl) t d).trans
    (by unfold Dat.fetched Dat.blockOf cblk0 iblk0; rfl)

/-- `emb`'s, `w`'s and `b`'s buffers are fetched at every point: each holds the array's block on the part inside the
    array and what it held, `d`, past it. -/
theorem before0_1 (c : Dev nD) (t : Fin cfg0.N) (d) :
    (dat0 V c).before 1 t d = win0_1.fill (grid0.coords t) d (iblk0 V c 1 t) := by
  unfold Dat.before; rw [if_pos (fetch0_1 t)]; rfl

theorem before0_2 (c : Dev nD) (t : Fin cfg0.N) (d) :
    (dat0 V c).before 2 t d = win0_2.fill (grid0.coords t) d (iblk0 V c 2 t) := by
  unfold Dat.before; rw [if_pos (fetch0_2 t)]; rfl

theorem before0_3 (c : Dev nD) (t : Fin cfg0.N) (d) :
    (dat0 V c).before 3 t d = win0_3.fill (grid0.coords t) d (iblk0 V c 3 t) := by
  unfold Dat.before; rw [if_pos (fetch0_3 t)]; rfl

/-- The result's buffer is written back at every point, so the body finds it at contents nothing names. -/
theorem before0_4 (c : Dev nD) (t : Fin cfg0.N) (d) : (dat0 V c).before 4 t d = d :=
  (dat0 V c).before_out_reset 4 rfl t (by
    by_cases ht : t.val = 0
    · exact .inl ht
    · exact .inr ⟨ht, flush0_4 _⟩) d

/-- Contents of the result's staging buffer that agree with `Y` on the part the write-back moves are `Y` there, filled
    out with themselves. -/
theorem owns_kept0_4 (c : Dev nD) (t : Fin cfg0.N) (R Y : S64x2048.Idx → Elt F .f32)
    (hcut : win0_4.cut (grid0.coords t) R = win0_4.cut (grid0.coords t) Y) :
    owns (c : Thread nD τ) (st0_4 t) fullShare R ⊢
      (iprop(∃ d, owns (c : Thread nD τ) (st0_4 t) fullShare
        (win0_4.fill (grid0.coords t) d (win0_4.cut (grid0.coords t) Y))) : sProp 𝕄) := by
  iintro H; iexists R
  rw [win0_4.fill_congr_cut (grid0.coords t) hcut]
  try iexact H

/-- The obligation with the result window forgotten: the inputs' buffers are handed back as found, which on the moved
    parts are the proof data's blocks; of the result's buffer nothing is stated. -/
theorem body_obligation0_fgt (c : Dev nD) :
    BodyObligationLoose (dat0 (F := F) V c) (defs₀ (F := F)) Variants.none () Set.univ outOnly := fun t => by
  rw [bigSep_W0, bigSep_W0]
  simp only
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%dc, Hc⟩, ⟨%de, He⟩, ⟨%dw, Hw⟩, ⟨%db, Hb⟩, ⟨%X, HX⟩⟩
  rw [before0_0 V c t dc, before0_1 V c t de, before0_2 V c t dw, before0_3 V c t db]
  iapply (sound_kernel0 (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (cblk0 V c t) (win0_1.fill (grid0.coords t) de (iblk0 V c 1 t)) (win0_2.fill (grid0.coords t) dw (iblk0 V c 2 t))
    (win0_3.fill (grid0.coords t) db (iblk0 V c 3 t)) _)
  isplitl [Hc]; · iexact Hc
  isplitl [He]; · iexact He
  isplitl [Hw]; · iexact Hw
  isplitl [Hb]; · iexact Hb
  isplitl [HX]; · iexists X; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage0_1 (cfg0.slots t 1)) fullShare
      (win0_1.fill (grid0.coords t) de (win0_1.cut (grid0.coords t) (eblk0 V c t)))
    rw [show win0_1.cut (grid0.coords t) (eblk0 V c t) = iblk0 V c 1 t from win0_1.cut_fill _ _ _]
  isplitl [Hw]
  · iexists dw
    change _ ⊢ owns (c : Thread nD τ) (stage0_2 (cfg0.slots t 2)) fullShare
      (win0_2.fill (grid0.coords t) dw (win0_2.cut (grid0.coords t) (wblk0 V c t)))
    rw [show win0_2.cut (grid0.coords t) (wblk0 V c t) = iblk0 V c 2 t from win0_2.cut_fill _ _ _]
  isplitl [Hb]
  · iexists db
    change _ ⊢ owns (c : Thread nD τ) (stage0_3 (cfg0.slots t 3)) fullShare
      (win0_3.fill (grid0.coords t) db (win0_3.cut (grid0.coords t) (bblk0 V c t)))
    rw [show win0_3.cut (grid0.coords t) (bblk0 V c t) = iblk0 V c 3 t from win0_3.cut_fill _ _ _]
  · iexists _; iexact HX

/-- The obligation with the result window named: as above, and the result's buffer holds the body's value on the
    inputs' buffers as found, whose moved part is the proof data's by `TailFree0`. -/
theorem body_obligation0_of (c : Dev nD) (h : TailFree0 V c) :
    BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%dc, Hc⟩, ⟨%de, He⟩, ⟨%dw, Hw⟩, ⟨%db, Hb⟩, ⟨%dx, HX⟩⟩
  rw [before0_0 V c t dc, before0_1 V c t de, before0_2 V c t dw, before0_3 V c t db, before0_4 V c t dx]
  iapply (sound_kernel0 (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (cblk0 V c t) (win0_1.fill (grid0.coords t) de (iblk0 V c 1 t)) (win0_2.fill (grid0.coords t) dw (iblk0 V c 2 t))
    (win0_3.fill (grid0.coords t) db (iblk0 V c 3 t)) _)
  isplitl [Hc]; · iexact Hc
  isplitl [He]; · iexact He
  isplitl [Hw]; · iexact Hw
  isplitl [Hb]; · iexact Hb
  isplitl [HX]; · iexists dx; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage0_1 (cfg0.slots t 1)) fullShare
      (win0_1.fill (grid0.coords t) de (win0_1.cut (grid0.coords t) (eblk0 V c t)))
    rw [show win0_1.cut (grid0.coords t) (eblk0 V c t) = iblk0 V c 1 t from win0_1.cut_fill _ _ _]
  isplitl [Hw]
  · iexists dw
    change _ ⊢ owns (c : Thread nD τ) (stage0_2 (cfg0.slots t 2)) fullShare
      (win0_2.fill (grid0.coords t) dw (win0_2.cut (grid0.coords t) (wblk0 V c t)))
    rw [show win0_2.cut (grid0.coords t) (wblk0 V c t) = iblk0 V c 2 t from win0_2.cut_fill _ _ _]
  isplitl [Hb]
  · iexists db
    change _ ⊢ owns (c : Thread nD τ) (stage0_3 (cfg0.slots t 3)) fullShare
      (win0_3.fill (grid0.coords t) db (win0_3.cut (grid0.coords t) (bblk0 V c t)))
    rw [show win0_3.cut (grid0.coords t) (bblk0 V c t) = iblk0 V c 3 t from win0_3.cut_fill _ _ _]
  · iapply (owns_kept0_4 (F := F) c t _ (oblk0 V c t) (h t de dw db))
    iexact HX

end Cert.KernelIdeal.Hand

end
-- ==== Proof.IBody1.lean ====
/-
  The body obligation of the second call, at any float instance. The body reads its five staging buffers whole (what
  it reads of the result's is unused), and stores max((claim · embᵀ) * w + b, 0) over the whole of the result's.
  `claim`'s buffer holds its block at every point; `emb`'s, `w`'s and `b`'s arrive just fetched — the array's block
  on the part inside the array, anything past it — and the result's arrives at anything, every point writing it back.
  The obligation states the four overhanging windows on the moved part only: the three inputs go back as found, and
  the result's buffer holds the body's value on what it found. With the result window forgotten that is all; with it
  named, the moved part of that value must not depend on what lay past the arrays' ends (`TailFree1`).
-/
import proofs.«118448_j74448963109447_1_alg».proof.Proof.IData
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on whole staging memrefs -/

/-- One store through the whole-shape rectangle at zero offsets leaves its payload, over any contents. -/
private theorem read_store_unit_zero {sg : RefSig} {κ : Kind} {sp : Space} {S : Shape} {e : EltTy}
    (v : View sg κ sp S e) (f : v.ty.Contents (Elt F)) {off : Fin S.rank → Nat} (hoff : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f [(⟨Rect.unit off S.size inb, w⟩ : View.Piece (Elt F) S e)]
    fun y => ⟨_, List.mem_singleton_self _, View.mem_set_unit_zero hoff inb y⟩).trans
    (View.canon_unit_zero hoff inb w)

set_option maxHeartbeats 1000000 in
/-- The body on whole memrefs of the staging shapes, the four inputs' at read contents `Xc`, `Xe`, `Xw`, `Xb` and the
    result's at anything: it runs to the continuation holding the inputs' as they were and the result's at the
    payload of its one store, `k1_pay1 Xc Xe Xw Xb`. Each load is through the whole-shape rectangle at zero offsets
    and reads the contents; the store is through the same rectangle of the result's shape and leaves its payload. -/
theorem sound_kernel1 (c : Dev nD) (E : Set ℕ) (i : grid1.Coords)
    (arg1 : Memref sig .tc .vmem S64x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S64x2048 .f32) (harg5 : arg5.IsWhole)
    (Xc : S64x1024.Idx → Elt F .f32) (Xe : S2048x1024.Idx → Elt F .f32) (Xw Xb : S1x2048.Idx → Elt F .f32)
    (K : PUnit → sProp 𝕄) :
    iprop(owns (c : Thread nD τ) arg1 fullShare Xc ∗ owns (c : Thread nD τ) arg2 fullShare Xe
        ∗ owns (c : Thread nD τ) arg3 fullShare Xw ∗ owns (c : Thread nD τ) arg4 fullShare Xb
        ∗ (∃ d, owns (c : Thread nD τ) arg5 fullShare d)
        ∗ (iprop(owns (c : Thread nD τ) arg1 fullShare Xc ∗ owns (c : Thread nD τ) arg2 fullShare Xe
            ∗ owns (c : Thread nD τ) arg3 fullShare Xw ∗ owns (c : Thread nD τ) arg4 fullShare Xb
            ∗ owns (c : Thread nD τ) arg5 fullShare (k1_pay1 Xc Xe Xw Xb)) -∗ K ⟨⟩))
      ⊢ wp frame (wpE (defs₀ (F := F)) Variants.none c none) E
          (cc1__affine_relu_kernel i arg1 harg1 arg2 harg2 arg3 harg3 arg4 harg4 arg5 harg5) K := by
  simp only [cc1__affine_relu_kernel_eq_skeleton]; unfold cc1__affine_relu_kernel_skel
  unfold owns
  iintro ⟨⟨%fc, %hfc, Hc⟩, ⟨%fe, %hfe, He⟩, ⟨%fw, %hfw, Hw⟩, ⟨%fb, %hfb, Hb⟩, ⟨%dd, %fo, -, Ho⟩, Hk⟩
  subst hfc hfe hfw hfb
  sl_exec
  sl_step
  iapply Hk
  have hz : (![0, 0] : Fin 2 → Nat) = fun _ => 0 := funext fun a => by fin_cases a <;> rfl
  have hc : View.readAt (Elt F) arg1.view (Rect.unit ![0, 0] S64x1024.size inb_S64x1024_S64x1024_0_0).toLoadRect fc
      = View.read (Elt F) arg1.view fc := View.ld_unit_zero (S := S64x1024) hz _ _
  have he : View.readAt (Elt F) arg2.view (Rect.unit ![0, 0] S2048x1024.size inb_S2048x1024_S2048x1024_0_0).toLoadRect fe
      = View.read (Elt F) arg2.view fe := View.ld_unit_zero (S := S2048x1024) hz _ _
  have hw : View.readAt (Elt F) arg3.view (Rect.unit ![0, 0] S1x2048.size inb_S1x2048_S1x2048_0_0).toLoadRect fw
      = View.read (Elt F) arg3.view fw := View.ld_unit_zero (S := S1x2048) hz _ _
  have hb : View.readAt (Elt F) arg4.view (Rect.unit ![0, 0] S1x2048.size inb_S1x2048_S1x2048_0_0).toLoadRect fb
      = View.read (Elt F) arg4.view fb := View.ld_unit_zero (S := S1x2048) hz _ _
  isplitl [Hc]
  · iexists fc; isplitr; · ipureintro; rfl
    iexact Hc
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact Ho
  ipureintro
  exact (read_store_unit_zero (S := S64x2048) _ _ hz _ _).trans (congr (congr (congr (congrArg k1_pay1 hc) he) hw) hb)

variable (V : (c : Dev nD) → (b : Ref sig .tc) → Buf (Elt F) ((c : Thread nD τ).loc b))

/-! ## What the staging buffers hold when the body runs, and after -/

/-- What the proof data say each buffer holds after the body, window by window. -/
theorem after1_0 (c : Dev nD) (t : Fin cfg1.N) : (dat1 V c).after 0 t = cblk1 V c t := by dsimp only [dat1]
theorem after1_1 (c : Dev nD) (t : Fin cfg1.N) : (dat1 V c).after 1 t = eblk1 V c t := by dsimp only [dat1]
theorem after1_2 (c : Dev nD) (t : Fin cfg1.N) : (dat1 V c).after 2 t = wblk1 V c t := by dsimp only [dat1]
theorem after1_3 (c : Dev nD) (t : Fin cfg1.N) : (dat1 V c).after 3 t = bblk1 V c t := by dsimp only [dat1]
theorem after1_4 (c : Dev nD) (t : Fin cfg1.N) : (dat1 V c).after 4 t = oblk1 V c t := by dsimp only [dat1]

/-- `claim`'s buffer holds its block at every point, fetched there or not: its block index never moves, the window is
    uncut, and the body leaves the block in place. -/
theorem before1_0 (c : Dev nD) (t : Fin cfg1.N) (d) : (dat1 V c).before 0 t d = cblk1 V c t :=
  ((dat1 V c).before_in_eq_fetched 0 rfl (fun _ => rfl) (fun _ _ _ => rfl)
    (fun t => by rw [after1_0]; unfold cblk1 iblk1 Dat.blockOf; rfl) t d).trans
    (by unfold Dat.fetched Dat.blockOf cblk1 iblk1; rfl)

/-- `emb`'s, `w`'s and `b`'s buffers are fetched at every point: each holds the array's block on the part inside the
    array and what it held, `d`, past it. -/
theorem before1_1 (c : Dev nD) (t : Fin cfg1.N) (d) :
    (dat1 V c).before 1 t d = win1_1.fill (grid1.coords t) d (iblk1 V c 1 t) := by
  unfold Dat.before; rw [if_pos (fetch1_1 t)]; rfl

theorem before1_2 (c : Dev nD) (t : Fin cfg1.N) (d) :
    (dat1 V c).before 2 t d = win1_2.fill (grid1.coords t) d (iblk1 V c 2 t) := by
  unfold Dat.before; rw [if_pos (fetch1_2 t)]; rfl

theorem before1_3 (c : Dev nD) (t : Fin cfg1.N) (d) :
    (dat1 V c).before 3 t d = win1_3.fill (grid1.coords t) d (iblk1 V c 3 t) := by
  unfold Dat.before; rw [if_pos (fetch1_3 t)]; rfl

/-- The result's buffer is written back at every point, so the body finds it at contents nothing names. -/
theorem before1_4 (c : Dev nD) (t : Fin cfg1.N) (d) : (dat1 V c).before 4 t d = d :=
  (dat1 V c).before_out_reset 4 rfl t (by
    by_cases ht : t.val = 0
    · exact .inl ht
    · exact .inr ⟨ht, flush1_4 _⟩) d

/-- Contents of the result's staging buffer that agree with `Y` on the part the write-back moves are `Y` there, filled
    out with themselves. -/
theorem owns_kept1_4 (c : Dev nD) (t : Fin cfg1.N) (R Y : S64x2048.Idx → Elt F .f32)
    (hcut : win1_4.cut (grid1.coords t) R = win1_4.cut (grid1.coords t) Y) :
    owns (c : Thread nD τ) (st1_4 t) fullShare R ⊢
      (iprop(∃ d, owns (c : Thread nD τ) (st1_4 t) fullShare
        (win1_4.fill (grid1.coords t) d (win1_4.cut (grid1.coords t) Y))) : sProp 𝕄) := by
  iintro H; iexists R
  rw [win1_4.fill_congr_cut (grid1.coords t) hcut]
  try iexact H

/-- The obligation with the result window forgotten: the inputs' buffers are handed back as found, which on the moved
    parts are the proof data's blocks; of the result's buffer nothing is stated. -/
theorem body_obligation1_fgt (c : Dev nD) :
    BodyObligationLoose (dat1 (F := F) V c) (defs₀ (F := F)) Variants.none () Set.univ outOnly := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%dc, Hc⟩, ⟨%de, He⟩, ⟨%dw, Hw⟩, ⟨%db, Hb⟩, ⟨%X, HX⟩⟩
  rw [before1_0 V c t dc, before1_1 V c t de, before1_2 V c t dw, before1_3 V c t db]
  iapply (sound_kernel1 (F := F) c Set.univ (grid1.coords t) (st1_0 t) (hstage1_0 ((cfg1.slots t 0).cast nbuf1_0))
    (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4))
    (cblk1 V c t) (win1_1.fill (grid1.coords t) de (iblk1 V c 1 t)) (win1_2.fill (grid1.coords t) dw (iblk1 V c 2 t))
    (win1_3.fill (grid1.coords t) db (iblk1 V c 3 t)) _)
  isplitl [Hc]; · iexact Hc
  isplitl [He]; · iexact He
  isplitl [Hw]; · iexact Hw
  isplitl [Hb]; · iexact Hb
  isplitl [HX]; · iexists X; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage1_1 (cfg1.slots t 1)) fullShare
      (win1_1.fill (grid1.coords t) de (win1_1.cut (grid1.coords t) (eblk1 V c t)))
    rw [show win1_1.cut (grid1.coords t) (eblk1 V c t) = iblk1 V c 1 t from win1_1.cut_fill _ _ _]
  isplitl [Hw]
  · iexists dw
    change _ ⊢ owns (c : Thread nD τ) (stage1_2 (cfg1.slots t 2)) fullShare
      (win1_2.fill (grid1.coords t) dw (win1_2.cut (grid1.coords t) (wblk1 V c t)))
    rw [show win1_2.cut (grid1.coords t) (wblk1 V c t) = iblk1 V c 2 t from win1_2.cut_fill _ _ _]
  isplitl [Hb]
  · iexists db
    change _ ⊢ owns (c : Thread nD τ) (stage1_3 (cfg1.slots t 3)) fullShare
      (win1_3.fill (grid1.coords t) db (win1_3.cut (grid1.coords t) (bblk1 V c t)))
    rw [show win1_3.cut (grid1.coords t) (bblk1 V c t) = iblk1 V c 3 t from win1_3.cut_fill _ _ _]
  · iexists _; iexact HX

/-- The obligation with the result window named: as above, and the result's buffer holds the body's value on the
    inputs' buffers as found, whose moved part is the proof data's by `TailFree1`. -/
theorem body_obligation1_of (c : Dev nD) (h : TailFree1 V c) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%dc, Hc⟩, ⟨%de, He⟩, ⟨%dw, Hw⟩, ⟨%db, Hb⟩, ⟨%dx, HX⟩⟩
  rw [before1_0 V c t dc, before1_1 V c t de, before1_2 V c t dw, before1_3 V c t db, before1_4 V c t dx]
  iapply (sound_kernel1 (F := F) c Set.univ (grid1.coords t) (st1_0 t) (hstage1_0 ((cfg1.slots t 0).cast nbuf1_0))
    (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4))
    (cblk1 V c t) (win1_1.fill (grid1.coords t) de (iblk1 V c 1 t)) (win1_2.fill (grid1.coords t) dw (iblk1 V c 2 t))
    (win1_3.fill (grid1.coords t) db (iblk1 V c 3 t)) _)
  isplitl [Hc]; · iexact Hc
  isplitl [He]; · iexact He
  isplitl [Hw]; · iexact Hw
  isplitl [Hb]; · iexact Hb
  isplitl [HX]; · iexists dx; iexact HX
  iintro ⟨Hc, He, Hw, Hb, HX⟩
  isplitl [HΦ]; · iexact HΦ
  isplitl [Ho]; · iexact Ho
  isplitl [Hc]; · iexact Hc
  isplitl [He]
  · iexists de
    change _ ⊢ owns (c : Thread nD τ) (stage1_1 (cfg1.slots t 1)) fullShare
      (win1_1.fill (grid1.coords t) de (win1_1.cut (grid1.coords t) (eblk1 V c t)))
    rw [show win1_1.cut (grid1.coords t) (eblk1 V c t) = iblk1 V c 1 t from win1_1.cut_fill _ _ _]
  isplitl [Hw]
  · iexists dw
    change _ ⊢ owns (c : Thread nD τ) (stage1_2 (cfg1.slots t 2)) fullShare
      (win1_2.fill (grid1.coords t) dw (win1_2.cut (grid1.coords t) (wblk1 V c t)))
    rw [show win1_2.cut (grid1.coords t) (wblk1 V c t) = iblk1 V c 2 t from win1_2.cut_fill _ _ _]
  isplitl [Hb]
  · iexists db
    change _ ⊢ owns (c : Thread nD τ) (stage1_3 (cfg1.slots t 3)) fullShare
      (win1_3.fill (grid1.coords t) db (win1_3.cut (grid1.coords t) (bblk1 V c t)))
    rw [show win1_3.cut (grid1.coords t) (bblk1 V c t) = iblk1 V c 3 t from win1_3.cut_fill _ _ _]
  · iapply (owns_kept1_4 (F := F) c t _ (oblk1 V c t) (h t de dw db))
    iexact HX

end Cert.KernelIdeal.Hand

end
-- ==== Proof.Spec.lean ====
/-
  What both programs compute, as extended reals: for a 64 x 1024 matrix `claim`, a table `emb` of N rows of 1024,
  and per-row scale `w` and shift `b` of length N, entry (i, j) of the 64 x N result is

      max ((sum over k of claim[i, k] * emb[j, k]) * w[j] + b[j], 0).

  The scale and shift reach the kernel as 1 x N arrays (a reshape on the host), so the whole-array function is
  stated over those. Two sizes of table occur: 82206 rows (text) and 122186 rows (image).
-/
import Idealize.ShloMosaic.PureOps.Ideal
import Idealize.ShloMosaic.Lib.ValueIdx

noncomputable section

namespace Cert.Spec

open Idealize.ShloMosaic

/-- One entry: the inner product of a row of `claim` with a row of `emb`, scaled, shifted, clamped below at zero. -/
def entry (x e : Fin 1024 → Ideal .f32) (w b : Ideal .f32) : Ideal .f32 :=
  FloatOps.maximumf (F := Ideal) (FloatOps.addf (F := Ideal) (FloatOps.mulf (F := Ideal) (∑ k : Fin 1024, x k * e k) w) b) (FloatOps.ofBits (F := Ideal) .f32 0x00000000#32)

abbrev C : Shape := ⟨2, ![64, 1024]⟩
abbrev Et : Shape := ⟨2, ![82206, 1024]⟩
abbrev Rt : Shape := ⟨2, ![1, 82206]⟩
abbrev Ot : Shape := ⟨2, ![64, 82206]⟩
abbrev Ei : Shape := ⟨2, ![122186, 1024]⟩
abbrev Ri : Shape := ⟨2, ![1, 122186]⟩
abbrev Oi : Shape := ⟨2, ![64, 122186]⟩

/-- A vector of length 82206 as a 1 x 82206 array (what the host's reshape makes of the scale and the shift). -/
def rowt (x : (⟨1, ![82206]⟩ : Shape).Idx → Ideal .f32) : Rt.Idx → Ideal .f32 := fun i => x (ValueIdx.ix1 (⟨(i 1).val, (i 1).isLt⟩ : Fin 82206))
/-- The same at length 122186. -/
def rowi (x : (⟨1, ![122186]⟩ : Shape).Idx → Ideal .f32) : Ri.Idx → Ideal .f32 := fun i => x (ValueIdx.ix1 (⟨(i 1).val, (i 1).isLt⟩ : Fin 122186))

/-- The text result, over the 1 x 82206 scale and shift. -/
def Gt (claim : C.Idx → Ideal .f32) (emb : Et.Idx → Ideal .f32) (w b : Rt.Idx → Ideal .f32) : Ot.Idx → Ideal .f32 :=
  fun i => entry (fun k => claim (ValueIdx.ix2 (⟨(i 0).val, (i 0).isLt⟩ : Fin 64) k)) (fun k => emb (ValueIdx.ix2 (⟨(i 1).val, (i 1).isLt⟩ : Fin 82206) k))
    (w (ValueIdx.ix2 (0 : Fin 1) (⟨(i 1).val, (i 1).isLt⟩ : Fin 82206))) (b (ValueIdx.ix2 (0 : Fin 1) (⟨(i 1).val, (i 1).isLt⟩ : Fin 82206)))

/-- The image result, over the 1 x 122186 scale and shift. -/
def Gi (claim : C.Idx → Ideal .f32) (emb : Ei.Idx → Ideal .f32) (w b : Ri.Idx → Ideal .f32) : Oi.Idx → Ideal .f32 :=
  fun i => entry (fun k => claim (ValueIdx.ix2 (⟨(i 0).val, (i 0).isLt⟩ : Fin 64) k)) (fun k => emb (ValueIdx.ix2 (⟨(i 1).val, (i 1).isLt⟩ : Fin 122186) k))
    (w (ValueIdx.ix2 (0 : Fin 1) (⟨(i 1).val, (i 1).isLt⟩ : Fin 122186))) (b (ValueIdx.ix2 (0 : Fin 1) (⟨(i 1).val, (i 1).isLt⟩ : Fin 122186)))

end Cert.Spec

end
-- ==== Proof.ITail.lean ====
/-
  The kernel body's value read at an index, over the extended reals: entry (i, j) of the block the body stores is
  max ((sum over k of claim[i, k] * emb[j, k]) * w[0, j] + b[0, j], 0) — the product into a zero accumulator is the
  plain sum over the contracted axis, the [1, 2048] scale and shift are broadcast down the 64 rows. Column j reads row
  j of the `emb` block and lane j of the `w` and `b` pieces only; the four overhanging windows keep the same number
  of rows / lanes at every point, so the part of the result the write-back moves does not see what the staging
  buffers hold past their arrays' ends.
-/
import proofs.«118448_j74448963109447_1_alg».proof.Proof.IData
import proofs.«118448_j74448963109447_1_alg».proof.Proof.Spec
import Idealize.ShloMosaic.PureOps.Ideal.Laws
import Idealize.ShloMosaic.Lib.ValueIdx
import Idealize.ShloMosaic.Lib.Pipeline.Value
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (V : (c : Dev nD) → (b : Ref sig .tc) → Buf (Elt Ideal) ((c : Thread nD τ).loc b))

/-! ## One entry of the body's result

The product contracts axis 1 of `claim` with axis 1 of the `emb` block: at output index (i, j) and contraction
position k the left operand is read at (i, k) and the right one at (j, k). -/

theorem dot_lhs_0 (i : S64x2048.Idx) (q : dot_S64x1024_S2048x1024_S64x2048_1_1_0_0_n_n.contr.Idx) :
    (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem dot_lhs_1 (i : S64x2048.Idx) (q : dot_S64x1024_S2048x1024_S64x2048_1_1_0_0_n_n.contr.Idx) :
    (dot_S64x1024_S2048x1024_S64x2048_1_1_0_0_n_n.lhsIdx i q 1).val = (q ⟨0, by decide⟩).val :=
  dot_S64x1024_S2048x1024_S64x2048_1_1_0_0_n_n.lhsIdx_val_of_single rfl i q
theorem dot_rhs_0 (i : S64x2048.Idx) (q : dot_S64x1024_S2048x1024_S64x2048_1_1_0_0_n_n.contr.Idx) :
    (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem dot_rhs_1 (i : S64x2048.Idx) (q : dot_S64x1024_S2048x1024_S64x2048_1_1_0_0_n_n.contr.Idx) :
    (dot_S64x1024_S2048x1024_S64x2048_1_1_0_0_n_n.rhsIdx i q 1).val = (q ⟨0, by decide⟩).val :=
  dot_S64x1024_S2048x1024_S64x2048_1_1_0_0_n_n.rhsIdx_val_of_single rfl i q

/-- The product into the zero accumulator, at (i, j): the inner product of row i of the left operand with row j of
    the right one. -/
theorem dot_apply (X0 : S64x1024.Idx → Ideal .f32) (X1 : S2048x1024.Idx → Ideal .f32) (i : Fin 64) (j : Fin 2048) :
    FloatOps.matmul (F := Ideal) dot_S64x1024_S2048x1024_S64x2048_1_1_0_0_n_n none X0 X1 (constant (F := Ideal) S64x2048 .f32 0x00000000#32) (ix2 i j)
      = ∑ k : Fin 1024, X0 (ix2 i k) * X1 (ix2 j k) := by
  rw [Ideal.matmul_constant_zero_apply, ← Equiv.sum_comp (ValueIdx.contrEquiv1 dot_S64x1024_S2048x1024_S64x2048_1_1_0_0_n_n 1024 rfl rfl).symm]
  refine Finset.sum_congr rfl fun k _ => ?_
  have hk := ValueIdx.contrEquiv1_symm_val dot_S64x1024_S2048x1024_S64x2048_1_1_0_0_n_n 1024 rfl rfl k
  have el : dot_S64x1024_S2048x1024_S64x2048_1_1_0_0_n_n.lhsIdx (ix2 i j) ((ValueIdx.contrEquiv1 dot_S64x1024_S2048x1024_S64x2048_1_1_0_0_n_n 1024 rfl rfl).symm k) = ix2 i k := funext fun a => Fin.ext (by
    match a with
    | ⟨0, _⟩ => exact dot_lhs_0 _ _
    | ⟨1, _⟩ => exact (dot_lhs_1 _ _).trans hk)
  have er : dot_S64x1024_S2048x1024_S64x2048_1_1_0_0_n_n.rhsIdx (ix2 i j) ((ValueIdx.contrEquiv1 dot_S64x1024_S2048x1024_S64x2048_1_1_0_0_n_n 1024 rfl rfl).symm k) = ix2 j k := funext fun a => Fin.ext (by
    match a with
    | ⟨0, _⟩ => exact dot_rhs_0 _ _
    | ⟨1, _⟩ => exact (dot_rhs_1 _ _).trans hk)
  rw [el, er]

/-- A 1 x 2048 row spread over the 64 rows reads, at (i, j), the row's lane j. -/
theorem row_apply (X : S1x2048.Idx → Ideal .f32) (i : Fin 64) (j : Fin 2048) :
    broadcastTo S64x2048 (shapeCast S1x2048 X shapeCasts_S1x2048_S1x2048) broadcasts_S1x2048_S64x2048 (ix2 i j) = X (ix2 (0 : Fin 1) j) := by
  rw [shapeCast_self]
  exact broadcastTo_apply X broadcasts_S1x2048_S64x2048 (ix2 i j) (ix2 (0 : Fin 1) j) (fun a => match a with
    | ⟨0, _⟩ => rfl
    | ⟨1, _⟩ => rfl)

theorem pay0_apply (X0 : S64x1024.Idx → Ideal .f32) (X1 : S2048x1024.Idx → Ideal .f32) (X2 X3 : S1x2048.Idx → Ideal .f32)
    (i : Fin 64) (j : Fin 2048) :
    k0_pay1 (F := Ideal) X0 X1 X2 X3 (ix2 i j)
      = Cert.Spec.entry (fun k => X0 (ix2 i k)) (fun k => X1 (ix2 j k)) (X2 (ix2 (0 : Fin 1) j)) (X3 (ix2 (0 : Fin 1) j)) := by
  unfold k0_pay1 Cert.Spec.entry
  show FloatOps.maximumf (F := Ideal) (FloatOps.addf (F := Ideal) (FloatOps.mulf (F := Ideal)
      (FloatOps.matmul (F := Ideal) dot_S64x1024_S2048x1024_S64x2048_1_1_0_0_n_n none X0 X1 (constant (F := Ideal) S64x2048 .f32 0x00000000#32) (ix2 i j))
      (broadcastTo S64x2048 (shapeCast S1x2048 X2 shapeCasts_S1x2048_S1x2048) broadcasts_S1x2048_S64x2048 (ix2 i j)))
      (broadcastTo S64x2048 (shapeCast S1x2048 X3 shapeCasts_S1x2048_S1x2048) broadcasts_S1x2048_S64x2048 (ix2 i j)))
      (FloatOps.ofBits (F := Ideal) .f32 0x00000000#32) = _
  rw [dot_apply, row_apply, row_apply]

theorem pay1_apply (X0 : S64x1024.Idx → Ideal .f32) (X1 : S2048x1024.Idx → Ideal .f32) (X2 X3 : S1x2048.Idx → Ideal .f32)
    (i : Fin 64) (j : Fin 2048) :
    k1_pay1 (F := Ideal) X0 X1 X2 X3 (ix2 i j)
      = Cert.Spec.entry (fun k => X0 (ix2 i k)) (fun k => X1 (ix2 j k)) (X2 (ix2 (0 : Fin 1) j)) (X3 (ix2 (0 : Fin 1) j)) :=
  pay0_apply X0 X1 X2 X3 i j

/-! ## The kept part of the result does not read past the arrays' ends

Where the fetch of a window moves an index, the staging buffer holds the array's element there whatever it held
before. Column j of the result reads row j of the `emb` block and lane j of `w` and of `b`; the write-back keeps
the columns j below the kept extent, and the three fetches move exactly the rows and lanes below that same extent. -/

/-- At an index the fetch moves, the filled buffer does not depend on what it held. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The first call's four cut windows keep the same number of rows (lanes) at every point, and cut no other axis. -/
theorem kept0 : ∀ t : Fin grid0.N,
    win0_1.xsize (grid0.coords t) (0 : Fin 2) = win0_4.xsize (grid0.coords t) (1 : Fin 2)
    ∧ win0_1.xsize (grid0.coords t) (1 : Fin 2) = 1024
    ∧ win0_2.xsize (grid0.coords t) (0 : Fin 2) = 1
    ∧ win0_2.xsize (grid0.coords t) (1 : Fin 2) = win0_4.xsize (grid0.coords t) (1 : Fin 2)
    ∧ win0_3.xsize (grid0.coords t) (0 : Fin 2) = 1
    ∧ win0_3.xsize (grid0.coords t) (1 : Fin 2) = win0_4.xsize (grid0.coords t) (1 : Fin 2) := by decide +kernel

theorem cut_pay0_congr (i : grid0.Coords)
    (h : win0_1.xsize i (0 : Fin 2) = win0_4.xsize i (1 : Fin 2)
    ∧ win0_1.xsize i (1 : Fin 2) = 1024
    ∧ win0_2.xsize i (0 : Fin 2) = 1
    ∧ win0_2.xsize i (1 : Fin 2) = win0_4.xsize i (1 : Fin 2)
    ∧ win0_3.xsize i (0 : Fin 2) = 1
    ∧ win0_3.xsize i (1 : Fin 2) = win0_4.xsize i (1 : Fin 2))
    (A : S64x1024.Idx → Ideal .f32) (d1 d1' : S2048x1024.Idx → Ideal .f32) (d2 d2' d3 d3' : S1x2048.Idx → Ideal .f32)
    (B1 : (win0_1.xblock i).Idx → Ideal .f32) (B2 : (win0_2.xblock i).Idx → Ideal .f32) (B3 : (win0_3.xblock i).Idx → Ideal .f32) :
    win0_4.cut i (k0_pay1 (F := Ideal) A (win0_1.fill i d1 B1) (win0_2.fill i d2 B2) (win0_3.fill i d3 B3))
      = win0_4.cut i (k0_pay1 (F := Ideal) A (win0_1.fill i d1' B1) (win0_2.fill i d2' B2) (win0_3.fill i d3' B3)) := by
  obtain ⟨h10, h11, h20, h21, h30, h31⟩ := h
  funext y
  have hy0 : (y (0 : Fin 2)).val < 64 := lt_of_lt_of_le (y (0 : Fin 2)).isLt (win0_4.xsize_le i (0 : Fin 2))
  have hy1 : (y (1 : Fin 2)).val < win0_4.xsize i (1 : Fin 2) := (y (1 : Fin 2)).isLt
  have hy1' : (y (1 : Fin 2)).val < 2048 := lt_of_lt_of_le hy1 (win0_4.xsize_le i (1 : Fin 2))
  have e : win0_4.xinj i y = ix2 (⟨(y (0 : Fin 2)).val, hy0⟩ : Fin 64) (⟨(y (1 : Fin 2)).val, hy1'⟩ : Fin 2048) := by
    funext a; match a with | ⟨0, _⟩ => rfl | ⟨1, _⟩ => rfl
  have m1 : ∀ k : Fin 1024, win0_1.moved i (ix2 (⟨(y (1 : Fin 2)).val, hy1'⟩ : Fin 2048) k) = true := fun k =>
    (win0_1.moved_iff i _).mpr fun a => by
      match a with
      | ⟨0, _⟩ => show (y (1 : Fin 2)).val < win0_1.xsize i (0 : Fin 2); rw [h10]; exact hy1
      | ⟨1, _⟩ => show k.val < win0_1.xsize i (1 : Fin 2); rw [h11]; exact k.isLt
  have m2 : win0_2.moved i (ix2 (0 : Fin 1) (⟨(y (1 : Fin 2)).val, hy1'⟩ : Fin 2048)) = true :=
    (win0_2.moved_iff i _).mpr fun a => by
      match a with
      | ⟨0, _⟩ => show 0 < win0_2.xsize i (0 : Fin 2); rw [h20]; exact Nat.one_pos
      | ⟨1, _⟩ => show (y (1 : Fin 2)).val < win0_2.xsize i (1 : Fin 2); rw [h21]; exact hy1
  have m3 : win0_3.moved i (ix2 (0 : Fin 1) (⟨(y (1 : Fin 2)).val, hy1'⟩ : Fin 2048)) = true :=
    (win0_3.moved_iff i _).mpr fun a => by
      match a with
      | ⟨0, _⟩ => show 0 < win0_3.xsize i (0 : Fin 2); rw [h30]; exact Nat.one_pos
      | ⟨1, _⟩ => show (y (1 : Fin 2)).val < win0_3.xsize i (1 : Fin 2); rw [h31]; exact hy1
  show k0_pay1 (F := Ideal) A (win0_1.fill i d1 B1) (win0_2.fill i d2 B2) (win0_3.fill i d3 B3) (win0_4.xinj i y)
    = k0_pay1 (F := Ideal) A (win0_1.fill i d1' B1) (win0_2.fill i d2' B2) (win0_3.fill i d3' B3) (win0_4.xinj i y)
  rw [e, pay0_apply, pay0_apply]
  have e1 : (fun k : Fin 1024 => win0_1.fill i d1 B1 (ix2 (⟨(y (1 : Fin 2)).val, hy1'⟩ : Fin 2048) k))
      = fun k : Fin 1024 => win0_1.fill i d1' B1 (ix2 (⟨(y (1 : Fin 2)).val, hy1'⟩ : Fin 2048) k) :=
    funext fun k => fill_eq_of_moved win0_1 i d1 d1' B1 (m1 k)
  rw [e1, fill_eq_of_moved win0_2 i d2 d2' B2 m2, fill_eq_of_moved win0_3 i d3 d3' B3 m3]

theorem tailFree0 (c : Dev nD) : TailFree0 (F := Ideal) V c := by
  intro t d1 d2 d3
  exact cut_pay0_congr (grid0.coords t) (kept0 t) (cblk0 V c t) d1 (fun _ => zw (F := Ideal)) d2 (fun _ => zw (F := Ideal)) d3 (fun _ => zw (F := Ideal))
    (iblk0 V c 1 t) (iblk0 V c 2 t) (iblk0 V c 3 t)
/-- The second call's four cut windows keep the same number of rows (lanes) at every point, and cut no other axis. -/
theorem kept1 : ∀ t : Fin grid1.N,
    win1_1.xsize (grid1.coords t) (0 : Fin 2) = win1_4.xsize (grid1.coords t) (1 : Fin 2)
    ∧ win1_1.xsize (grid1.coords t) (1 : Fin 2) = 1024
    ∧ win1_2.xsize (grid1.coords t) (0 : Fin 2) = 1
    ∧ win1_2.xsize (grid1.coords t) (1 : Fin 2) = win1_4.xsize (grid1.coords t) (1 : Fin 2)
    ∧ win1_3.xsize (grid1.coords t) (0 : Fin 2) = 1
    ∧ win1_3.xsize (grid1.coords t) (1 : Fin 2) = win1_4.xsize (grid1.coords t) (1 : Fin 2) := by decide +kernel

theorem cut_pay1_congr (i : grid1.Coords)
    (h : win1_1.xsize i (0 : Fin 2) = win1_4.xsize i (1 : Fin 2)
    ∧ win1_1.xsize i (1 : Fin 2) = 1024
    ∧ win1_2.xsize i (0 : Fin 2) = 1
    ∧ win1_2.xsize i (1 : Fin 2) = win1_4.xsize i (1 : Fin 2)
    ∧ win1_3.xsize i (0 : Fin 2) = 1
    ∧ win1_3.xsize i (1 : Fin 2) = win1_4.xsize i (1 : Fin 2))
    (A : S64x1024.Idx → Ideal .f32) (d1 d1' : S2048x1024.Idx → Ideal .f32) (d2 d2' d3 d3' : S1x2048.Idx → Ideal .f32)
    (B1 : (win1_1.xblock i).Idx → Ideal .f32) (B2 : (win1_2.xblock i).Idx → Ideal .f32) (B3 : (win1_3.xblock i).Idx → Ideal .f32) :
    win1_4.cut i (k1_pay1 (F := Ideal) A (win1_1.fill i d1 B1) (win1_2.fill i d2 B2) (win1_3.fill i d3 B3))
      = win1_4.cut i (k1_pay1 (F := Ideal) A (win1_1.fill i d1' B1) (win1_2.fill i d2' B2) (win1_3.fill i d3' B3)) := by
  obtain ⟨h10, h11, h20, h21, h30, h31⟩ := h
  funext y
  have hy0 : (y (0 : Fin 2)).val < 64 := lt_of_lt_of_le (y (0 : Fin 2)).isLt (win1_4.xsize_le i (0 : Fin 2))
  have hy1 : (y (1 : Fin 2)).val < win1_4.xsize i (1 : Fin 2) := (y (1 : Fin 2)).isLt
  have hy1' : (y (1 : Fin 2)).val < 2048 := lt_of_lt_of_le hy1 (win1_4.xsize_le i (1 : Fin 2))
  have e : win1_4.xinj i y = ix2 (⟨(y (0 : Fin 2)).val, hy0⟩ : Fin 64) (⟨(y (1 : Fin 2)).val, hy1'⟩ : Fin 2048) := by
    funext a; match a with | ⟨0, _⟩ => rfl | ⟨1, _⟩ => rfl
  have m1 : ∀ k : Fin 1024, win1_1.moved i (ix2 (⟨(y (1 : Fin 2)).val, hy1'⟩ : Fin 2048) k) = true := fun k =>
    (win1_1.moved_iff i _).mpr fun a => by
      match a with
      | ⟨0, _⟩ => show (y (1 : Fin 2)).val < win1_1.xsize i (0 : Fin 2); rw [h10]; exact hy1
      | ⟨1, _⟩ => show k.val < win1_1.xsize i (1 : Fin 2); rw [h11]; exact k.isLt
  have m2 : win1_2.moved i (ix2 (0 : Fin 1) (⟨(y (1 : Fin 2)).val, hy1'⟩ : Fin 2048)) = true :=
    (win1_2.moved_iff i _).mpr fun a => by
      match a with
      | ⟨0, _⟩ => show 0 < win1_2.xsize i (0 : Fin 2); rw [h20]; exact Nat.one_pos
      | ⟨1, _⟩ => show (y (1 : Fin 2)).val < win1_2.xsize i (1 : Fin 2); rw [h21]; exact hy1
  have m3 : win1_3.moved i (ix2 (0 : Fin 1) (⟨(y (1 : Fin 2)).val, hy1'⟩ : Fin 2048)) = true :=
    (win1_3.moved_iff i _).mpr fun a => by
      match a with
      | ⟨0, _⟩ => show 0 < win1_3.xsize i (0 : Fin 2); rw [h30]; exact Nat.one_pos
      | ⟨1, _⟩ => show (y (1 : Fin 2)).val < win1_3.xsize i (1 : Fin 2); rw [h31]; exact hy1
  show k1_pay1 (F := Ideal) A (win1_1.fill i d1 B1) (win1_2.fill i d2 B2) (win1_3.fill i d3 B3) (win1_4.xinj i y)
    = k1_pay1 (F := Ideal) A (win1_1.fill i d1' B1) (win1_2.fill i d2' B2) (win1_3.fill i d3' B3) (win1_4.xinj i y)
  rw [e, pay1_apply, pay1_apply]
  have e1 : (fun k : Fin 1024 => win1_1.fill i d1 B1 (ix2 (⟨(y (1 : Fin 2)).val, hy1'⟩ : Fin 2048) k))
      = fun k : Fin 1024 => win1_1.fill i d1' B1 (ix2 (⟨(y (1 : Fin 2)).val, hy1'⟩ : Fin 2048) k) :=
    funext fun k => fill_eq_of_moved win1_1 i d1 d1' B1 (m1 k)
  rw [e1, fill_eq_of_moved win1_2 i d2 d2' B2 m2, fill_eq_of_moved win1_3 i d3 d3' B3 m3]

theorem tailFree1 (c : Dev nD) : TailFree1 (F := Ideal) V c := by
  intro t d1 d2 d3
  exact cut_pay1_congr (grid1.coords t) (kept1 t) (cblk1 V c t) d1 (fun _ => zw (F := Ideal)) d2 (fun _ => zw (F := Ideal)) d3 (fun _ => zw (F := Ideal))
    (iblk1 V c 1 t) (iblk1 V c 2 t) (iblk1 V c 3 t)

end Cert.KernelIdeal.Hand

end
-- ==== Proof.IRun.lean ====
/-
  The idealized program's run. @main is: two reshapes, the first call, two reshapes, the second call. The contents of
  a core's buffers are followed boundary by boundary — a host stretch applies its operations, a call leaves its
  input arrays as it found them and its result array at what the write-backs make of it, every other buffer
  untouched — so each call's arrays at its entry are the launch memory's arguments (the scale and the shift through
  their reshape), each result at the end is its call's array after the last write-back, and no argument changes.
-/
import proofs.«118448_j74448963109447_1_alg».proof.Proof.IBody0
import proofs.«118448_j74448963109447_1_alg».proof.Proof.IBody1
import proofs.«118448_j74448963109447_1_alg».proof.Proof.ITail
import Idealize.ShloMosaic.Lib.Pipeline.RegionsLoop
import Idealize.ShloMosaic.Lib.Pipeline.FrameSuffix
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at each boundary of @main -/

/-- Core `c`'s buffers at launch. -/
abbrev W0 : Dev nD → Valuation τ sig (Elt Ideal) := fun c b => m ((c : Dev nD), b)
/-- After the first two reshapes (the first call's entry). -/
abbrev W1 : Dev nD → Valuation τ sig (Elt Ideal) := fun c => StableHlo.after (hostOps0 (F := Ideal)) (W0 m c)
abbrev V1 : (c : Dev nD) → (b : Ref sig .tc) → Buf (Elt Ideal) ((c : Thread nD τ).loc b) := fun c b => W1 m c b
/-- At the first call's exit: its arrays at what the write-backs leave, every other buffer as entered. -/
def W2 (c : Dev nD) : Valuation τ sig (Elt Ideal) :=
  Pipeline.withArrays spec0 c (W1 m c) fun w => (dat0 (F := Ideal) (V1 m) c).arrAt w cfg0.N
abbrev V2 : (c : Dev nD) → (b : Ref sig .tc) → Buf (Elt Ideal) ((c : Thread nD τ).loc b) := fun c b => W2 m c b
/-- After the next two reshapes (the second call's entry). -/
abbrev W3 : Dev nD → Valuation τ sig (Elt Ideal) := fun c => StableHlo.after (hostOps1 (F := Ideal)) (W2 m c)
abbrev V3 : (c : Dev nD) → (b : Ref sig .tc) → Buf (Elt Ideal) ((c : Thread nD τ).loc b) := fun c b => W3 m c b
/-- At the second call's exit. -/
def W4 (c : Dev nD) : Valuation τ sig (Elt Ideal) :=
  Pipeline.withArrays spec1 c (W3 m c) fun w => (dat1 (F := Ideal) (V3 m) c).arrAt w cfg1.N

/-! ## Reading the boundaries' contents -/

/-- The first call's arrays hold, at its exit, what its write-backs leave. -/
theorem W2_arr (c : Dev nD) (w : Fin cfg0.W) :
    W2 m c (Proc.devRef .tc (Pipeline.arrRef spec0 w)) = (dat0 (F := Ideal) (V1 m) c).arrAt w cfg0.N := by
  unfold W2; exact Pipeline.withArrays_arr spec0 launch0.win.arr_inj c _ _ w
/-- Every other buffer holds what it held at the first call's entry. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (F := Ideal) (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The second call's arrays hold, at its exit, what its write-backs leave. -/
theorem W4_arr (c : Dev nD) (w : Fin cfg1.W) :
    W4 m c (Proc.devRef .tc (Pipeline.arrRef spec1 w)) = (dat1 (F := Ideal) (V3 m) c).arrAt w cfg1.N := by
  unfold W4; exact Pipeline.withArrays_arr spec1 launch1.win.arr_inj c _ _ w
/-- Every other buffer holds what it held at the second call's entry. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt Ideal) ((c : Thread nD τ).loc b) := fun c b => W4 m c b
theorem hF1 (c : Dev nD) (w : Fin cfg1.W) : (dat1 (F := Ideal) (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The first two reshapes write `main_v0` and `main_v1` only. -/
theorem after0_of (V : Valuation τ sig (Elt Ideal)) (r : Ref sig .tc) (h0 : r ≠ main_v0) (h1 : r ≠ main_v1) :
    StableHlo.after (hostOps0 (F := Ideal)) V (Proc.devRef .tc r) = V (Proc.devRef .tc r) := by
  simp only [StableHlo.after_cons, StableHlo.after_nil]
  rw [StableHlo.reshape_result_ne _ _ _ _ _ _ _ h1, StableHlo.reshape_result_ne _ _ _ _ _ _ _ h0]
/-- The next two write `main_v3` and `main_v4` only. -/
theorem after1_of (V : Valuation τ sig (Elt Ideal)) (r : Ref sig .tc) (h0 : r ≠ main_v3) (h1 : r ≠ main_v4) :
    StableHlo.after (hostOps1 (F := Ideal)) V (Proc.devRef .tc r) = V (Proc.devRef .tc r) := by
  simp only [StableHlo.after_cons, StableHlo.after_nil]
  rw [StableHlo.reshape_result_ne _ _ _ _ _ _ _ h1, StableHlo.reshape_result_ne _ _ _ _ _ _ _ h0]

/-- A buffer that neither pair of reshapes writes and that is no array of the first call holds, at the second
    call's entry, its launch contents. -/
theorem W3_bypass (c : Dev nD) (r : Ref sig .tc) (h0 : r ≠ main_v0) (h1 : r ≠ main_v1) (h3 : r ≠ main_v3) (h4 : r ≠ main_v4)
    (hb : ∀ w, Pipeline.arrRef spec0 w ≠ r) : W3 m c (Proc.devRef .tc r) = m ((c : Thread nD τ).loc r) :=
  (after1_of _ r h3 h4).trans ((W2_of_ne m c r hb).trans ((after0_of _ r h0 h1).trans rfl))

/-- An input array of the first call that no reshape writes holds, at the second call's entry, its launch contents. -/
theorem W3_input0 (c : Dev nD) (w : Fin cfg0.W) (hin : (cfg0.win w).isOut = false)
    (h0 : Pipeline.arrRef spec0 w ≠ main_v0) (h1 : Pipeline.arrRef spec0 w ≠ main_v1)
    (h3 : Pipeline.arrRef spec0 w ≠ main_v3) (h4 : Pipeline.arrRef spec0 w ≠ main_v4) :
    W3 m c (Proc.devRef .tc (Pipeline.arrRef spec0 w)) = m ((c : Thread nD τ).loc (Pipeline.arrRef spec0 w)) :=
  (after1_of _ _ h3 h4).trans ((W2_arr m c w).trans (((dat0 (F := Ideal) (V1 m) c).arrAt_in w hin _).trans
    ((after0_of _ _ h0 h1).trans rfl)))

/-! ## What each call finds in its arrays -/

theorem V1_arg0 (c : Dev nD) : V1 m c main_arg0 = m ((c : Thread nD τ).loc main_arg0) :=
  (after0_of _ main_arg0 (by decide) (by decide)).trans rfl
theorem V1_arg1 (c : Dev nD) : V1 m c main_arg1 = m ((c : Thread nD τ).loc main_arg1) :=
  (after0_of _ main_arg1 (by decide) (by decide)).trans rfl
theorem V1_v0 (c : Dev nD) : V1 m c main_v0 = shapeCast S1x82206 (m ((c : Thread nD τ).loc main_arg3)) shapeCasts_S82206_S1x82206 := by
  show StableHlo.after (hostOps0 (F := Ideal)) _ (Proc.devRef .tc main_v0) = _
  after_results
  rfl
theorem V1_v1 (c : Dev nD) : V1 m c main_v1 = shapeCast S1x82206 (m ((c : Thread nD τ).loc main_arg4)) shapeCasts_S82206_S1x82206 := by
  show StableHlo.after (hostOps0 (F := Ideal)) _ (Proc.devRef .tc main_v1) = _
  after_results
  rfl
theorem V3_arg0 (c : Dev nD) : V3 m c main_arg0 = m ((c : Thread nD τ).loc main_arg0) :=
  W3_input0 m c 0 rfl (by decide) (by decide) (by decide) (by decide)
theorem V3_arg2 (c : Dev nD) : V3 m c main_arg2 = m ((c : Thread nD τ).loc main_arg2) :=
  W3_bypass m c main_arg2 (by decide) (by decide) (by decide) (by decide) (by decide)
theorem W2_arg5 (c : Dev nD) : W2 m c (Proc.devRef .tc main_arg5) = m ((c : Thread nD τ).loc main_arg5) :=
  (W2_of_ne m c main_arg5 (by decide)).trans ((after0_of _ main_arg5 (by decide) (by decide)).trans rfl)
theorem W2_arg6 (c : Dev nD) : W2 m c (Proc.devRef .tc main_arg6) = m ((c : Thread nD τ).loc main_arg6) :=
  (W2_of_ne m c main_arg6 (by decide)).trans ((after0_of _ main_arg6 (by decide) (by decide)).trans rfl)
theorem V3_v3 (c : Dev nD) : V3 m c main_v3 = shapeCast S1x122186 (m ((c : Thread nD τ).loc main_arg5)) shapeCasts_S122186_S1x122186 := by
  show StableHlo.after (hostOps1 (F := Ideal)) _ (Proc.devRef .tc main_v3) = _
  after_results
  rw [W2_arg5]
  rfl
theorem V3_v4 (c : Dev nD) : V3 m c main_v4 = shapeCast S1x122186 (m ((c : Thread nD τ).loc main_arg6)) shapeCasts_S122186_S1x122186 := by
  show StableHlo.after (hostOps1 (F := Ideal)) _ (Proc.devRef .tc main_v4) = _
  after_results
  rw [W2_arg6]
  rfl

/-! ## What the last boundary holds -/

theorem W4_v5 (c : Dev nD) : W4 m c (Proc.devRef .tc main_v5) = (dat1 (F := Ideal) (V3 m) c).arrAt 4 cfg1.N := W4_arr m c 4
theorem W4_v2 (c : Dev nD) : W4 m c (Proc.devRef .tc main_v2) = (dat0 (F := Ideal) (V1 m) c).arrAt 4 cfg0.N :=
  (W4_of_ne m c main_v2 (by decide)).trans ((after1_of _ main_v2 (by decide) (by decide)).trans (W2_arr m c 4))
/-- An input array of the second call ends at what the call found in it. -/
theorem W4_input1 (c : Dev nD) (w : Fin cfg1.W) (hin : (cfg1.win w).isOut = false) :
    W4 m c (Proc.devRef .tc (Pipeline.arrRef spec1 w)) = V3 m c (Pipeline.arrRef spec1 w) :=
  (W4_arr m c w).trans ((dat1 (F := Ideal) (V3 m) c).arrAt_in w hin _)
theorem W4_arg0 (c : Dev nD) : W4 m c (Proc.devRef .tc main_arg0) = m ((c : Thread nD τ).loc main_arg0) :=
  (W4_input1 m c 0 rfl).trans (V3_arg0 m c)
theorem W4_arg1 (c : Dev nD) : W4 m c (Proc.devRef .tc main_arg1) = m ((c : Thread nD τ).loc main_arg1) :=
  (W4_of_ne m c main_arg1 (by decide)).trans (W3_input0 m c 1 rfl (by decide) (by decide) (by decide) (by decide))
theorem W4_arg2 (c : Dev nD) : W4 m c (Proc.devRef .tc main_arg2) = m ((c : Thread nD τ).loc main_arg2) :=
  (W4_input1 m c 1 rfl).trans (V3_arg2 m c)
theorem W4_arg3 (c : Dev nD) : W4 m c (Proc.devRef .tc main_arg3) = m ((c : Thread nD τ).loc main_arg3) :=
  (W4_of_ne m c main_arg3 (by decide)).trans (W3_bypass m c main_arg3 (by decide) (by decide) (by decide) (by decide) (by decide))
theorem W4_arg4 (c : Dev nD) : W4 m c (Proc.devRef .tc main_arg4) = m ((c : Thread nD τ).loc main_arg4) :=
  (W4_of_ne m c main_arg4 (by decide)).trans (W3_bypass m c main_arg4 (by decide) (by decide) (by decide) (by decide) (by decide))
theorem W4_arg5 (c : Dev nD) : W4 m c (Proc.devRef .tc main_arg5) = m ((c : Thread nD τ).loc main_arg5) :=
  (W4_of_ne m c main_arg5 (by decide)).trans (W3_bypass m c main_arg5 (by decide) (by decide) (by decide) (by decide) (by decide))
theorem W4_arg6 (c : Dev nD) : W4 m c (Proc.devRef .tc main_arg6) = m ((c : Thread nD τ).loc main_arg6) :=
  (W4_of_ne m c main_arg6 (by decide)).trans (W3_bypass m c main_arg6 (by decide) (by decide) (by decide) (by decide) (by decide))

/-! ## The proof data family and the thread state -/

/-- No call has a prefetched table. -/
abbrev adm : (p : Fin 2) → (pcfgs (F := Ideal) p).Adm := fun p => (cfgs p).toPCfg_adm
/-- Each call's proof data at the contents its entry finds. -/
def pdats : (p : Fin 2) → (c : Dev nD) → Dat τ (Elt Ideal) Unit ℕ (UR sig nD τ) ℕ (Pipeline.pin (pcfgs (F := Ideal)) adm p) c
  | ⟨0, _⟩ => fun c => dat0 (F := Ideal) (V1 m) c
  | ⟨1, _⟩ => fun c => dat1 (F := Ideal) (V3 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A pair of reshapes as a segment over the unscoped buffers from the contents `W`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 (F := Ideal) : List (HloOp τ sig (Elt Ideal))).Forall fun op => op.fresh = ∅ := by
  simp only [List.Forall]; repeat' constructor
theorem hostOps1_fresh : (hostOps1 (F := Ideal) : List (HloOp τ sig (Elt Ideal))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from every unscoped buffer at `W1`, left at `W2`. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0_of (V1 m) c (tailFree0 (V1 m) c)
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1_of (V3 m) c (tailFree1 (V3 m) c)
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four segments in order: a pair of reshapes, a call, a pair of reshapes, a call. -/
abbrev segs : List (Pipeline.Seg (pcfgs (F := Ideal)) adm (pdats m) () defs₀ 𝒱₀ L lv) :=
  [ .host (hseg (hostOps0 (F := Ideal)) hostOps0_sub hostOps0_fresh (W0 m)),
    .region (reg0 m),
    .host (hseg (hostOps1 (F := Ideal)) hostOps1_sub hostOps1_fresh (W2 m)),
    .region (reg1 m) ]
/-- @main is the run of the segments. -/
theorem main_run (c : Dev nD) : main (F := Ideal) c = Pipeline.Seg.run (segs m) := (main_chain c).trans (by chain_rfl)

set_option backward.isDefEq.respectTransparency.types false in
/-- Every weakly fair execution of @main ends, with each result array at what its call's write-backs leave and the
    arguments as launched. -/
theorem run_values : θ_run defs (onTc (τ := τ) (main (F := Ideal))) ⟨m, fun _ => 0, ρ⟩ (fun r => ∀ c : Dev nD,
      r.2.mem ((c.tc : Thread nD τ).loc main_v2) = (dat0 (F := Ideal) (V1 m) c).arrAt 4 cfg0.N
      ∧ r.2.mem ((c.tc : Thread nD τ).loc main_v5) = (dat1 (F := Ideal) (V3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v2 (by decide))).trans (W4_v2 m c),
       (h c _ (mem_uc main_v5 (by decide))).trans (W4_v5 m c),
       (h c _ (mem_uc main_arg0 (by decide))).trans (W4_arg0 m c),
       (h c _ (mem_uc main_arg1 (by decide))).trans (W4_arg1 m c),
       (h c _ (mem_uc main_arg2 (by decide))).trans (W4_arg2 m c),
       (h c _ (mem_uc main_arg3 (by decide))).trans (W4_arg3 m c),
       (h c _ (mem_uc main_arg4 (by decide))).trans (W4_arg4 m c),
       (h c _ (mem_uc main_arg5 (by decide))).trans (W4_arg5 m c),
       (h c _ (mem_uc main_arg6 (by decide))).trans (W4_arg6 m c)⟩)

end Cert.KernelIdeal.Hand

end
-- ==== Proof.IFinal0.lean ====
/-
  The text result array after the first call's write-backs is the whole-array function `Gt` of the four arrays the
  call reads. Point t writes lanes 2048 t .. of the result (the last point only the lanes inside the array); entry
  (p, q) of its block is the body's value there, which reads row p of `claim`, row 2048 t + q of the table and lane
  2048 t + q of the scale and the shift — the blocks of the one function. Lane j of the array is covered by point
  j / 2048.
-/
import proofs.«118448_j74448963109447_1_alg».proof.Proof.ITail
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (V : (c : Dev nD) → (b : Ref sig .tc) → Buf (Elt Ideal) ((c : Thread nD τ).loc b))

/-- The index maps, decided over the grid: `claim`'s block is always block (0, 0); the table's block at point `t` is
    block (t, 0); the scale's, the shift's and the result's are block (0, t). -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The extents the transfers move, decided over the grid: the table's rows, the scale's and the shift's lanes are
    cut exactly as the result's lanes are, and the result's lanes at point `t` end where the block or the array ends. -/
theorem ext_facts0 : ∀ t : Fin cfg0.N,
    win0_1.xsize (grid0.coords t) (0 : Fin 2) = win0_4.xsize (grid0.coords t) (1 : Fin 2)
    ∧ win0_1.xsize (grid0.coords t) (1 : Fin 2) = 1024
    ∧ win0_2.xsize (grid0.coords t) (0 : Fin 2) = 1
    ∧ win0_2.xsize (grid0.coords t) (1 : Fin 2) = win0_4.xsize (grid0.coords t) (1 : Fin 2)
    ∧ win0_3.xsize (grid0.coords t) (0 : Fin 2) = 1
    ∧ win0_3.xsize (grid0.coords t) (1 : Fin 2) = win0_4.xsize (grid0.coords t) (1 : Fin 2)
    ∧ win0_4.xsize (grid0.coords t) (0 : Fin 2) = 64
    ∧ t.val * 2048 + win0_4.xsize (grid0.coords t) (1 : Fin 2) = min ((t.val + 1) * 2048) 82206 :=
  (by decide +kernel : ∀ t : Fin grid0.N, _)

/-- `claim`'s block is the whole matrix at every point. -/
theorem cblk0_apply (c : Dev nD) (t : Fin cfg0.N) (p : Fin 64) (k : Fin 1024) :
    cblk0 (F := Ideal) V c t (ix2 p k) = V c main_arg0 (ix2 p k) := by
  obtain ⟨hA, hB, -⟩ := idx_facts0 t
  show V c main_arg0 ((win0_0.rect t).emb (ix2 p k)) = _
  congr 1
  refine Shape.idx_ext₂ ?_ ?_
  · rw [Rect.emb_apply]
    show win0_0.index t (0 : Fin 2) * 64 + 1 * p.val = p.val
    omega
  · rw [Rect.emb_apply]
    show win0_0.index t (1 : Fin 2) * 1024 + 1 * k.val = k.val
    omega

/-- Row `q` of the table's staged block at point `t`, when the fetch moves it, is row `2048 t + q` of the table. -/
theorem eblk0_apply (c : Dev nD) (t : Fin cfg0.N) (q : Fin 2048) (k : Fin 1024) (r : Fin 82206)
    (hq : q.val < win0_4.xsize (grid0.coords t) (1 : Fin 2)) (hr : r.val = t.val * 2048 + q.val) :
    eblk0 (F := Ideal) V c t (ix2 q k) = V c main_arg1 (ix2 r k) := by
  obtain ⟨-, -, hA, hB, -⟩ := idx_facts0 t
  obtain ⟨hC, hD, -⟩ := ext_facts0 t
  have hm : win0_1.moved (grid0.coords t) (ix2 q k) = true := by
    rw [Window.moved_iff]
    intro a
    match a with
    | ⟨0, _⟩ => show q.val < win0_1.xsize (grid0.coords t) (0 : Fin 2); omega
    | ⟨1, _⟩ => show k.val < win0_1.xsize (grid0.coords t) (1 : Fin 2); have := k.isLt; omega
  unfold eblk0 Window.fill
  rw [dif_pos hm]
  show V c main_arg1 ((win0_1.rect t).emb _) = _
  congr 1
  refine Shape.idx_ext₂ ?_ ?_
  · rw [Rect.emb_apply]
    show win0_1.index t (0 : Fin 2) * 2048 + 1 * q.val = r.val
    omega
  · rw [Rect.emb_apply]
    show win0_1.index t (1 : Fin 2) * 1024 + 1 * k.val = k.val
    omega

/-- Lane `q` of the scale's staged piece at point `t`, when the fetch moves it, is lane `2048 t + q` of the scale. -/
theorem wblk0_apply (c : Dev nD) (t : Fin cfg0.N) (q : Fin 2048) (r : Fin 82206)
    (hq : q.val < win0_4.xsize (grid0.coords t) (1 : Fin 2)) (hr : r.val = t.val * 2048 + q.val) :
    wblk0 (F := Ideal) V c t (ix2 (0 : Fin 1) q) = V c main_v0 (ix2 (0 : Fin 1) r) := by
  obtain ⟨-, -, -, -, hA, hB, -⟩ := idx_facts0 t
  obtain ⟨-, -, hC, hD, -⟩ := ext_facts0 t
  have hm : win0_2.moved (grid0.coords t) (ix2 (0 : Fin 1) q) = true := by
    rw [Window.moved_iff]
    intro a
    match a with
    | ⟨0, _⟩ => show (0 : Fin 1).val < win0_2.xsize (grid0.coords t) (0 : Fin 2); rw [hC]; exact Nat.zero_lt_one
    | ⟨1, _⟩ => show q.val < win0_2.xsize (grid0.coords t) (1 : Fin 2); omega
  unfold wblk0 Window.fill
  rw [dif_pos hm]
  show V c main_v0 ((win0_2.rect t).emb _) = _
  congr 1
  refine Shape.idx_ext₂ ?_ ?_
  · rw [Rect.emb_apply]
    show win0_2.index t (0 : Fin 2) * 1 + 1 * (0 : Fin 1).val = (0 : Fin 1).val
    rw [hA]; rfl
  · rw [Rect.emb_apply]
    show win0_2.index t (1 : Fin 2) * 2048 + 1 * q.val = r.val
    omega

/-- Lane `q` of the shift's staged piece at point `t`, when the fetch moves it, is lane `2048 t + q` of the shift. -/
theorem bblk0_apply (c : Dev nD) (t : Fin cfg0.N) (q : Fin 2048) (r : Fin 82206)
    (hq : q.val < win0_4.xsize (grid0.coords t) (1 : Fin 2)) (hr : r.val = t.val * 2048 + q.val) :
    bblk0 (F := Ideal) V c t (ix2 (0 : Fin 1) q) = V c main_v1 (ix2 (0 : Fin 1) r) := by
  obtain ⟨-, -, -, -, -, -, hA, hB, -⟩ := idx_facts0 t
  obtain ⟨-, -, -, -, hC, hD, -⟩ := ext_facts0 t
  have hm : win0_3.moved (grid0.coords t) (ix2 (0 : Fin 1) q) = true := by
    rw [Window.moved_iff]
    intro a
    match a with
    | ⟨0, _⟩ => show (0 : Fin 1).val < win0_3.xsize (grid0.coords t) (0 : Fin 2); rw [hC]; exact Nat.zero_lt_one
    | ⟨1, _⟩ => show q.val < win0_3.xsize (grid0.coords t) (1 : Fin 2); omega
  unfold bblk0 Window.fill
  rw [dif_pos hm]
  show V c main_v1 ((win0_3.rect t).emb _) = _
  congr 1
  refine Shape.idx_ext₂ ?_ ?_
  · rw [Rect.emb_apply]
    show win0_3.index t (0 : Fin 2) * 1 + 1 * (0 : Fin 1).val = (0 : Fin 1).val
    rw [hA]; rfl
  · rw [Rect.emb_apply]
    show win0_3.index t (1 : Fin 2) * 2048 + 1 * q.val = r.val
    omega

/-- What point `t` writes back is block `t` of the whole-array function of the four arrays the call reads. -/
theorem flushed0_eq (c : Dev nD) (t : Fin cfg0.N) :
    (dat0 (F := Ideal) V c).flushed 4 t
      = ((cfg0.win 4).blk t).view.read (Elt Ideal)
          (Cert.Spec.Gt (V c main_arg0) (V c main_arg1) (V c main_v0) (V c main_v1)) := by
  obtain ⟨-, -, -, -, -, -, -, -, hA, hB⟩ := idx_facts0 t
  obtain ⟨-, -, -, -, -, -, hC, hD⟩ := ext_facts0 t
  funext y
  show win0_4.cut (grid0.coords t) ((dat0 (F := Ideal) V c).after 4 t) y = _
  dsimp only [dat0]
  -- the block's index of `y`, by coordinates
  have hp : (y (0 : Fin 2)).val < 64 := hC ▸ (y (0 : Fin 2)).isLt
  have hq : (y (1 : Fin 2)).val < 2048 := Nat.lt_of_lt_of_le (y (1 : Fin 2)).isLt (win0_4.xsize_le (grid0.coords t) (1 : Fin 2))
  have hy : win0_4.xinj (grid0.coords t) y = ix2 (⟨(y (0 : Fin 2)).val, hp⟩ : Fin 64) (⟨(y (1 : Fin 2)).val, hq⟩ : Fin 2048) :=
    Shape.idx_ext₂ rfl rfl
  show oblk0 (F := Ideal) V c t (win0_4.xinj (grid0.coords t) y) = _
  rw [hy]
  unfold oblk0
  rw [pay0_apply, View.read_apply]
  show _ = Cert.Spec.Gt (V c main_arg0) (V c main_arg1) (V c main_v0) (V c main_v1) ((win0_4.rect t).emb y)
  unfold Cert.Spec.Gt
  have hr : (((win0_4.rect t).emb y) (1 : Fin 2)).val = t.val * 2048 + (y (1 : Fin 2)).val := by
    rw [Rect.emb_apply]
    show win0_4.index t (1 : Fin 2) * 2048 + 1 * (y (1 : Fin 2)).val = _
    omega
  have hs : (((win0_4.rect t).emb y) (0 : Fin 2)).val = (y (0 : Fin 2)).val := by
    rw [Rect.emb_apply]
    show win0_4.index t (0 : Fin 2) * 64 + 1 * (y (0 : Fin 2)).val = _
    omega
  have hlt : (y (1 : Fin 2)).val < win0_4.xsize (grid0.coords t) (1 : Fin 2) := (y (1 : Fin 2)).isLt
  congr 1
  · funext k
    rw [cblk0_apply]
    congr 1
    exact Shape.idx_ext₂ hs.symm rfl
  · funext k
    exact eblk0_apply V c t _ k _ hlt hr
  · exact wblk0_apply V c t _ _ hlt hr
  · exact bblk0_apply V c t _ _ hlt hr

/-- An index of the result is in point `t`'s block iff each coordinate is among those the write-back moves. -/
theorem mem_blk0 (t : Fin cfg0.N) (i : S64x82206.Idx) :
    i ∈ ((cfg0.win 4).blk t).view.set
      ↔ ∀ a : Fin 2, win0_4.index t a * S64x2048.size a ≤ (i a).val
          ∧ (i a).val < win0_4.index t a * S64x2048.size a + win0_4.xsize (grid0.coords t) a := by
  show i ∈ ((View.whole (Pipeline.arrRef spec0 4)).slice (win0_4.rect t)).set ↔ _
  rw [View.set_slice_whole, Rect.mem_set_unit]
  exact Iff.rfl

/-- Every index of the result is in some point's block: lane `j` in that of point `j / 2048`. -/
theorem covered0 (i : S64x82206.Idx) :
    ∃ t : Fin cfg0.N, (cfg0.win 4).flush t = true ∧ i ∈ ((cfg0.win 4).blk t).view.set := by
  have hN : S64x82206.size (1 : Fin 2) ≤ cfg0.N * 2048 := by decide
  have hrow : (i (0 : Fin 2)).val < 64 := (i (0 : Fin 2)).isLt
  have hlane : (i (1 : Fin 2)).val < 82206 := (i (1 : Fin 2)).isLt
  have ht : (i (1 : Fin 2)).val / 2048 < cfg0.N :=
    Nat.div_lt_of_lt_mul (by rw [Nat.mul_comm]; exact Nat.lt_of_lt_of_le (i (1 : Fin 2)).isLt hN)
  obtain ⟨t, htv⟩ : ∃ t : Fin cfg0.N, t.val = (i (1 : Fin 2)).val / 2048 := ⟨⟨_, ht⟩, rfl⟩
  obtain ⟨-, -, -, -, -, -, -, -, hA, hB⟩ := idx_facts0 t
  obtain ⟨-, -, -, -, -, -, hC, hD⟩ := ext_facts0 t
  refine ⟨t, flush0_4 t, ?_⟩
  rw [mem_blk0]
  intro a
  match a with
  | ⟨0, _⟩ =>
    show win0_4.index t (0 : Fin 2) * 64 ≤ (i (0 : Fin 2)).val
      ∧ (i (0 : Fin 2)).val < win0_4.index t (0 : Fin 2) * 64 + win0_4.xsize (grid0.coords t) (0 : Fin 2)
    omega
  | ⟨1, _⟩ =>
    show win0_4.index t (1 : Fin 2) * 2048 ≤ (i (1 : Fin 2)).val
      ∧ (i (1 : Fin 2)).val < win0_4.index t (1 : Fin 2) * 2048 + win0_4.xsize (grid0.coords t) (1 : Fin 2)
    omega

theorem final0 (c : Dev nD) :
    (dat0 (F := Ideal) V c).arrAt 4 cfg0.N = Cert.Spec.Gt (V c main_arg0) (V c main_arg1) (V c main_v0) (V c main_v1) :=
  (dat0 (F := Ideal) V c).arrAt_eq_of_cover 4 _ (fun t _ => flushed0_eq V c t) covered0

end Cert.KernelIdeal.Hand

end
-- ==== Proof.IFinal1.lean ====
/-
  The image result array after the second call's write-backs is the whole-array function `Gi` of the four arrays the
  call reads. Point t writes lanes 2048 t .. of the result (the last point only the lanes inside the array); entry
  (p, q) of its block is the body's value there, which reads row p of `claim`, row 2048 t + q of the table and lane
  2048 t + q of the scale and the shift — the blocks of the one function. Lane j of the array is covered by point
  j / 2048.
-/
import proofs.«118448_j74448963109447_1_alg».proof.Proof.ITail
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (V : (c : Dev nD) → (b : Ref sig .tc) → Buf (Elt Ideal) ((c : Thread nD τ).loc b))

/-- The index maps, decided over the grid: `claim`'s block is always block (0, 0); the table's block at point `t` is
    block (t, 0); the scale's, the shift's and the result's are block (0, t). -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

/-- The extents the transfers move, decided over the grid: the table's rows, the scale's and the shift's lanes are
    cut exactly as the result's lanes are, and the result's lanes at point `t` end where the block or the array ends. -/
theorem ext_facts1 : ∀ t : Fin cfg1.N,
    win1_1.xsize (grid1.coords t) (0 : Fin 2) = win1_4.xsize (grid1.coords t) (1 : Fin 2)
    ∧ win1_1.xsize (grid1.coords t) (1 : Fin 2) = 1024
    ∧ win1_2.xsize (grid1.coords t) (0 : Fin 2) = 1
    ∧ win1_2.xsize (grid1.coords t) (1 : Fin 2) = win1_4.xsize (grid1.coords t) (1 : Fin 2)
    ∧ win1_3.xsize (grid1.coords t) (0 : Fin 2) = 1
    ∧ win1_3.xsize (grid1.coords t) (1 : Fin 2) = win1_4.xsize (grid1.coords t) (1 : Fin 2)
    ∧ win1_4.xsize (grid1.coords t) (0 : Fin 2) = 64
    ∧ t.val * 2048 + win1_4.xsize (grid1.coords t) (1 : Fin 2) = min ((t.val + 1) * 2048) 122186 :=
  (by decide +kernel : ∀ t : Fin grid1.N, _)

/-- `claim`'s block is the whole matrix at every point. -/
theorem cblk1_apply (c : Dev nD) (t : Fin cfg1.N) (p : Fin 64) (k : Fin 1024) :
    cblk1 (F := Ideal) V c t (ix2 p k) = V c main_arg0 (ix2 p k) := by
  obtain ⟨hA, hB, -⟩ := idx_facts1 t
  show V c main_arg0 ((win1_0.rect t).emb (ix2 p k)) = _
  congr 1
  refine Shape.idx_ext₂ ?_ ?_
  · rw [Rect.emb_apply]
    show win1_0.index t (0 : Fin 2) * 64 + 1 * p.val = p.val
    omega
  · rw [Rect.emb_apply]
    show win1_0.index t (1 : Fin 2) * 1024 + 1 * k.val = k.val
    omega

/-- Row `q` of the table's staged block at point `t`, when the fetch moves it, is row `2048 t + q` of the table. -/
theorem eblk1_apply (c : Dev nD) (t : Fin cfg1.N) (q : Fin 2048) (k : Fin 1024) (r : Fin 122186)
    (hq : q.val < win1_4.xsize (grid1.coords t) (1 : Fin 2)) (hr : r.val = t.val * 2048 + q.val) :
    eblk1 (F := Ideal) V c t (ix2 q k) = V c main_arg2 (ix2 r k) := by
  obtain ⟨-, -, hA, hB, -⟩ := idx_facts1 t
  obtain ⟨hC, hD, -⟩ := ext_facts1 t
  have hm : win1_1.moved (grid1.coords t) (ix2 q k) = true := by
    rw [Window.moved_iff]
    intro a
    match a with
    | ⟨0, _⟩ => show q.val < win1_1.xsize (grid1.coords t) (0 : Fin 2); omega
    | ⟨1, _⟩ => show k.val < win1_1.xsize (grid1.coords t) (1 : Fin 2); have := k.isLt; omega
  unfold eblk1 Window.fill
  rw [dif_pos hm]
  show V c main_arg2 ((win1_1.rect t).emb _) = _
  congr 1
  refine Shape.idx_ext₂ ?_ ?_
  · rw [Rect.emb_apply]
    show win1_1.index t (0 : Fin 2) * 2048 + 1 * q.val = r.val
    omega
  · rw [Rect.emb_apply]
    show win1_1.index t (1 : Fin 2) * 1024 + 1 * k.val = k.val
    omega

/-- Lane `q` of the scale's staged piece at point `t`, when the fetch moves it, is lane `2048 t + q` of the scale. -/
theorem wblk1_apply (c : Dev nD) (t : Fin cfg1.N) (q : Fin 2048) (r : Fin 122186)
    (hq : q.val < win1_4.xsize (grid1.coords t) (1 : Fin 2)) (hr : r.val = t.val * 2048 + q.val) :
    wblk1 (F := Ideal) V c t (ix2 (0 : Fin 1) q) = V c main_v3 (ix2 (0 : Fin 1) r) := by
  obtain ⟨-, -, -, -, hA, hB, -⟩ := idx_facts1 t
  obtain ⟨-, -, hC, hD, -⟩ := ext_facts1 t
  have hm : win1_2.moved (grid1.coords t) (ix2 (0 : Fin 1) q) = true := by
    rw [Window.moved_iff]
    intro a
    match a with
    | ⟨0, _⟩ => show (0 : Fin 1).val < win1_2.xsize (grid1.coords t) (0 : Fin 2); rw [hC]; exact Nat.zero_lt_one
    | ⟨1, _⟩ => show q.val < win1_2.xsize (grid1.coords t) (1 : Fin 2); omega
  unfold wblk1 Window.fill
  rw [dif_pos hm]
  show V c main_v3 ((win1_2.rect t).emb _) = _
  congr 1
  refine Shape.idx_ext₂ ?_ ?_
  · rw [Rect.emb_apply]
    show win1_2.index t (0 : Fin 2) * 1 + 1 * (0 : Fin 1).val = (0 : Fin 1).val
    rw [hA]; rfl
  · rw [Rect.emb_apply]
    show win1_2.index t (1 : Fin 2) * 2048 + 1 * q.val = r.val
    omega

/-- Lane `q` of the shift's staged piece at point `t`, when the fetch moves it, is lane `2048 t + q` of the shift. -/
theorem bblk1_apply (c : Dev nD) (t : Fin cfg1.N) (q : Fin 2048) (r : Fin 122186)
    (hq : q.val < win1_4.xsize (grid1.coords t) (1 : Fin 2)) (hr : r.val = t.val * 2048 + q.val) :
    bblk1 (F := Ideal) V c t (ix2 (0 : Fin 1) q) = V c main_v4 (ix2 (0 : Fin 1) r) := by
  obtain ⟨-, -, -, -, -, -, hA, hB, -⟩ := idx_facts1 t
  obtain ⟨-, -, -, -, hC, hD, -⟩ := ext_facts1 t
  have hm : win1_3.moved (grid1.coords t) (ix2 (0 : Fin 1) q) = true := by
    rw [Window.moved_iff]
    intro a
    match a with
    | ⟨0, _⟩ => show (0 : Fin 1).val < win1_3.xsize (grid1.coords t) (0 : Fin 2); rw [hC]; exact Nat.zero_lt_one
    | ⟨1, _⟩ => show q.val < win1_3.xsize (grid1.coords t) (1 : Fin 2); omega
  unfold bblk1 Window.fill
  rw [dif_pos hm]
  show V c main_v4 ((win1_3.rect t).emb _) = _
  congr 1
  refine Shape.idx_ext₂ ?_ ?_
  · rw [Rect.emb_apply]
    show win1_3.index t (0 : Fin 2) * 1 + 1 * (0 : Fin 1).val = (0 : Fin 1).val
    rw [hA]; rfl
  · rw [Rect.emb_apply]
    show win1_3.index t (1 : Fin 2) * 2048 + 1 * q.val = r.val
    omega

/-- What point `t` writes back is block `t` of the whole-array function of the four arrays the call reads. -/
theorem flushed1_eq (c : Dev nD) (t : Fin cfg1.N) :
    (dat1 (F := Ideal) V c).flushed 4 t
      = ((cfg1.win 4).blk t).view.read (Elt Ideal)
          (Cert.Spec.Gi (V c main_arg0) (V c main_arg2) (V c main_v3) (V c main_v4)) := by
  obtain ⟨-, -, -, -, -, -, -, -, hA, hB⟩ := idx_facts1 t
  obtain ⟨-, -, -, -, -, -, hC, hD⟩ := ext_facts1 t
  funext y
  show win1_4.cut (grid1.coords t) ((dat1 (F := Ideal) V c).after 4 t) y = _
  dsimp only [dat1]
  -- the block's index of `y`, by coordinates
  have hp : (y (0 : Fin 2)).val < 64 := hC ▸ (y (0 : Fin 2)).isLt
  have hq : (y (1 : Fin 2)).val < 2048 := Nat.lt_of_lt_of_le (y (1 : Fin 2)).isLt (win1_4.xsize_le (grid1.coords t) (1 : Fin 2))
  have hy : win1_4.xinj (grid1.coords t) y = ix2 (⟨(y (0 : Fin 2)).val, hp⟩ : Fin 64) (⟨(y (1 : Fin 2)).val, hq⟩ : Fin 2048) :=
    Shape.idx_ext₂ rfl rfl
  show oblk1 (F := Ideal) V c t (win1_4.xinj (grid1.coords t) y) = _
  rw [hy]
  unfold oblk1
  rw [pay1_apply, View.read_apply]
  show _ = Cert.Spec.Gi (V c main_arg0) (V c main_arg2) (V c main_v3) (V c main_v4) ((win1_4.rect t).emb y)
  unfold Cert.Spec.Gi
  have hr : (((win1_4.rect t).emb y) (1 : Fin 2)).val = t.val * 2048 + (y (1 : Fin 2)).val := by
    rw [Rect.emb_apply]
    show win1_4.index t (1 : Fin 2) * 2048 + 1 * (y (1 : Fin 2)).val = _
    omega
  have hs : (((win1_4.rect t).emb y) (0 : Fin 2)).val = (y (0 : Fin 2)).val := by
    rw [Rect.emb_apply]
    show win1_4.index t (0 : Fin 2) * 64 + 1 * (y (0 : Fin 2)).val = _
    omega
  have hlt : (y (1 : Fin 2)).val < win1_4.xsize (grid1.coords t) (1 : Fin 2) := (y (1 : Fin 2)).isLt
  congr 1
  · funext k
    rw [cblk1_apply]
    congr 1
    exact Shape.idx_ext₂ hs.symm rfl
  · funext k
    exact eblk1_apply V c t _ k _ hlt hr
  · exact wblk1_apply V c t _ _ hlt hr
  · exact bblk1_apply V c t _ _ hlt hr

/-- An index of the result is in point `t`'s block iff each coordinate is among those the write-back moves. -/
theorem mem_blk1 (t : Fin cfg1.N) (i : S64x122186.Idx) :
    i ∈ ((cfg1.win 4).blk t).view.set
      ↔ ∀ a : Fin 2, win1_4.index t a * S64x2048.size a ≤ (i a).val
          ∧ (i a).val < win1_4.index t a * S64x2048.size a + win1_4.xsize (grid1.coords t) a := by
  show i ∈ ((View.whole (Pipeline.arrRef spec1 4)).slice (win1_4.rect t)).set ↔ _
  rw [View.set_slice_whole, Rect.mem_set_unit]
  exact Iff.rfl

/-- Every index of the result is in some point's block: lane `j` in that of point `j / 2048`. -/
theorem covered1 (i : S64x122186.Idx) :
    ∃ t : Fin cfg1.N, (cfg1.win 4).flush t = true ∧ i ∈ ((cfg1.win 4).blk t).view.set := by
  have hN : S64x122186.size (1 : Fin 2) ≤ cfg1.N * 2048 := by decide
  have hrow : (i (0 : Fin 2)).val < 64 := (i (0 : Fin 2)).isLt
  have hlane : (i (1 : Fin 2)).val < 122186 := (i (1 : Fin 2)).isLt
  have ht : (i (1 : Fin 2)).val / 2048 < cfg1.N :=
    Nat.div_lt_of_lt_mul (by rw [Nat.mul_comm]; exact Nat.lt_of_lt_of_le (i (1 : Fin 2)).isLt hN)
  obtain ⟨t, htv⟩ : ∃ t : Fin cfg1.N, t.val = (i (1 : Fin 2)).val / 2048 := ⟨⟨_, ht⟩, rfl⟩
  obtain ⟨-, -, -, -, -, -, -, -, hA, hB⟩ := idx_facts1 t
  obtain ⟨-, -, -, -, -, -, hC, hD⟩ := ext_facts1 t
  refine ⟨t, flush1_4 t, ?_⟩
  rw [mem_blk1]
  intro a
  match a with
  | ⟨0, _⟩ =>
    show win1_4.index t (0 : Fin 2) * 64 ≤ (i (0 : Fin 2)).val
      ∧ (i (0 : Fin 2)).val < win1_4.index t (0 : Fin 2) * 64 + win1_4.xsize (grid1.coords t) (0 : Fin 2)
    omega
  | ⟨1, _⟩ =>
    show win1_4.index t (1 : Fin 2) * 2048 ≤ (i (1 : Fin 2)).val
      ∧ (i (1 : Fin 2)).val < win1_4.index t (1 : Fin 2) * 2048 + win1_4.xsize (grid1.coords t) (1 : Fin 2)
    omega

theorem final1 (c : Dev nD) :
    (dat1 (F := Ideal) V c).arrAt 4 cfg1.N = Cert.Spec.Gi (V c main_arg0) (V c main_arg2) (V c main_v3) (V c main_v4) :=
  (dat1 (F := Ideal) V c).arrAt_eq_of_cover 4 _ (fun t _ => flushed1_eq V c t) covered1

end Cert.KernelIdeal.Hand

end
-- ==== Proof.RefRead.lean ====
/- The reference's run and its stages read at an index, brought together for the bridge to the stated function. -/
import proofs.«118448_j74448963109447_1_alg».proof.Proof.Gen.ReferenceIdeal.Run
import proofs.«118448_j74448963109447_1_alg».proof.Proof.Gen.ReferenceIdeal.Read
-- ==== Proof.RefValue.lean ====
/-
  The reference program computes the stated function: reading its last stage at an index (i, j) and following each
  stage back to the arguments gives max ((sum over k of claim[i, k] * emb[j, k]) * w[j] + b[j], 0), the scale and the
  shift being read through the 1 x N reshaping.
-/
import proofs.«118448_j74448963109447_1_alg».proof.Proof.RefRead
import proofs.«118448_j74448963109447_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ### Text: 82206 rows -/

/-- The left operand of the contraction is read at row (i 0), column k. -/
theorem lidx_t (i : S64x82206.Idx) (k : Fin 1024) :
    lidx_main_v1 i k = ix2 (⟨(i 0).val, (i 0).isLt⟩ : Fin 64) k :=
  funext fun a => Fin.ext (by match a with | ⟨0, _⟩ => rfl | ⟨1, _⟩ => rfl)

/-- The transposed table, read at (k, i 1), is the table at row (i 1), column k. -/
theorem ridx_t (i : S64x82206.Idx) (k : Fin 1024) :
    idx_main_v0 (ridx_main_v1 i k) = ix2 (⟨(i 1).val, (i 1).isLt⟩ : Fin 82206) k :=
  funext fun a => Fin.ext (by match a with | ⟨0, _⟩ => rfl | ⟨1, _⟩ => rfl)

/-- The scale, broadcast twice, is read at (i 1). -/
theorem widx_t (i : S64x82206.Idx) :
    idx_main_v4 (idx_main_v5 i) = ix1 (⟨(i 1).val, (i 1).isLt⟩ : Fin 82206) :=
  funext fun a => Fin.ext (by match a with | ⟨0, _⟩ => rfl)

/-- The shift, broadcast twice, is read at (i 1). -/
theorem bidx_t (i : S64x82206.Idx) :
    idx_main_v7 (idx_main_v8 i) = ix1 (⟨(i 1).val, (i 1).isLt⟩ : Fin 82206) :=
  funext fun a => Fin.ext (by match a with | ⟨0, _⟩ => rfl)

theorem text_eq (x0 : S64x1024.Idx → Ideal .f32) (x1 : S82206x1024.Idx → Ideal .f32) (x3 x4 : S82206.Idx → Ideal .f32) :
    val_main_v10 (F := Ideal) x0 x1 x3 x4 = Cert.Spec.Gt x0 x1 (Cert.Spec.rowt x3) (Cert.Spec.rowt x4) := by
  funext i
  rw [val_main_v10_apply, val_main_v9_apply, val_main_v6_apply, val_main_v1_apply, val_main_v5_apply, val_main_v4_apply,
    val_main_v8_apply, val_main_v7_apply, val_main_call0_v0_apply, val_main_call0_cst_apply, widx_t, bidx_t]
  have hs : (∑ k : Fin 1024, x0 (lidx_main_v1 i k) * (val_main_v0 (F := Ideal) x1) (ridx_main_v1 i k))
      = ∑ k : Fin 1024, x0 (ix2 (⟨(i 0).val, (i 0).isLt⟩ : Fin 64) k) * x1 (ix2 (⟨(i 1).val, (i 1).isLt⟩ : Fin 82206) k) :=
    Finset.sum_congr rfl (fun k _ => by rw [val_main_v0_apply, lidx_t, ridx_t])
  rw [hs]
  unfold Cert.Spec.Gt Cert.Spec.entry Cert.Spec.rowt
  rfl

/-! ### Image: 122186 rows -/

/-- The left operand of the contraction is read at row (i 0), column k. -/
theorem lidx_i (i : S64x122186.Idx) (k : Fin 1024) :
    lidx_main_v3 i k = ix2 (⟨(i 0).val, (i 0).isLt⟩ : Fin 64) k :=
  funext fun a => Fin.ext (by match a with | ⟨0, _⟩ => rfl | ⟨1, _⟩ => rfl)

/-- The transposed table, read at (k, i 1), is the table at row (i 1), column k. -/
theorem ridx_i (i : S64x122186.Idx) (k : Fin 1024) :
    idx_main_v2 (ridx_main_v3 i k) = ix2 (⟨(i 1).val, (i 1).isLt⟩ : Fin 122186) k :=
  funext fun a => Fin.ext (by match a with | ⟨0, _⟩ => rfl | ⟨1, _⟩ => rfl)

/-- The scale, broadcast twice, is read at (i 1). -/
theorem widx_i (i : S64x122186.Idx) :
    idx_main_v11 (idx_main_v12 i) = ix1 (⟨(i 1).val, (i 1).isLt⟩ : Fin 122186) :=
  funext fun a => Fin.ext (by match a with | ⟨0, _⟩ => rfl)

/-- The shift, broadcast twice, is read at (i 1). -/
theorem bidx_i (i : S64x122186.Idx) :
    idx_main_v14 (idx_main_v15 i) = ix1 (⟨(i 1).val, (i 1).isLt⟩ : Fin 122186) :=
  funext fun a => Fin.ext (by match a with | ⟨0, _⟩ => rfl)

theorem image_eq (x0 : S64x1024.Idx → Ideal .f32) (x2 : S122186x1024.Idx → Ideal .f32) (x5 x6 : S122186.Idx → Ideal .f32) :
    val_main_v17 (F := Ideal) x0 x2 x5 x6 = Cert.Spec.Gi x0 x2 (Cert.Spec.rowi x5) (Cert.Spec.rowi x6) := by
  funext i
  rw [val_main_v17_apply, val_main_v16_apply, val_main_v13_apply, val_main_v3_apply, val_main_v12_apply, val_main_v11_apply,
    val_main_v15_apply, val_main_v14_apply, val_main_call1_v0_apply, val_main_call1_cst_apply, widx_i, bidx_i]
  have hs : (∑ k : Fin 1024, x0 (lidx_main_v3 i k) * (val_main_v2 (F := Ideal) x2) (ridx_main_v3 i k))
      = ∑ k : Fin 1024, x0 (ix2 (⟨(i 0).val, (i 0).isLt⟩ : Fin 64) k) * x2 (ix2 (⟨(i 1).val, (i 1).isLt⟩ : Fin 122186) k) :=
    Finset.sum_congr rfl (fun k _ => by rw [val_main_v2_apply, lidx_i, ridx_i])
  rw [hs]
  unfold Cert.Spec.Gi Cert.Spec.entry Cert.Spec.rowi
  rfl

end Cert.ReferenceIdeal.RefValue

end
-- ==== Proof.lean ====
/-
  The certificate. Both programs compute, for the text table (82206 rows) and the image table (122186 rows),

      out[i, j] = max ((sum over k of claim[i, k] * emb[j, k]) * w[j] + b[j], 0)

  over the extended reals: the kernel one block of 2048 table rows at a time, the reference by one whole matrix
  product, a broadcast scale and shift and a clamp. Entry (i, j) reads row i of `claim` and row j of the table only,
  so the blocks' results are the whole-array function's blocks, and the last block of each table — which overhangs
  the table by rows nothing names — contributes only the rows inside it. No law beyond reading both sides at an
  index is needed, and the precondition is never opened.

  The frames: at the bit level the product at a call's last point depends on the unnamed rows, so the result arrays
  are carried at contents nothing names, and the arguments, which no call and no host operation writes, end as
  launched; at the idealized level the same run also names both results.
-/
import proofs.«118448_j74448963109447_1_alg».proof.Defs
import proofs.«118448_j74448963109447_1_alg».proof.Proof.Gen.Kernel
import proofs.«118448_j74448963109447_1_alg».proof.Proof.Gen.KernelIdeal
import proofs.«118448_j74448963109447_1_alg».proof.Proof.Gen.ReferenceIdeal
import proofs.«118448_j74448963109447_1_alg».proof.Proof.Gen.Pre_finite_inputs
import proofs.«118448_j74448963109447_1_alg».proof.Proof.KRun
import proofs.«118448_j74448963109447_1_alg».proof.Proof.IRun
import proofs.«118448_j74448963109447_1_alg».proof.Proof.IFinal0
import proofs.«118448_j74448963109447_1_alg».proof.Proof.IFinal1
import proofs.«118448_j74448963109447_1_alg».proof.Proof.RefValue
import Idealize.ShloMosaic.Lib.Pipeline.Value
import Idealize.ShloMosaic.Adequacy
import Idealize.ShloMosaic.Init

noncomputable section

namespace Cert.Proof

open Idealize.ShloMosaic Idealize.ShloMosaic.TcCoe Idealize.SL.Sem

/-! ## A vector reshaped to one row is read at the row's lane -/

theorem reshape_rowt (x : Cert.KernelIdeal.S82206.Idx → Ideal .f32) (h : Cert.KernelIdeal.S82206.ShapeCasts Cert.KernelIdeal.S1x82206) :
    shapeCast Cert.KernelIdeal.S1x82206 x h = Cert.Spec.rowt x := by
  funext j
  refine (shapeCast_addUnit_apply (n := 1) ![82206] x h j).trans ?_
  unfold Cert.Spec.rowt
  exact congrArg x (funext fun a => Fin.ext (by match a with | ⟨0, _⟩ => rfl))

theorem reshape_rowi (x : Cert.KernelIdeal.S122186.Idx → Ideal .f32) (h : Cert.KernelIdeal.S122186.ShapeCasts Cert.KernelIdeal.S1x122186) :
    shapeCast Cert.KernelIdeal.S1x122186 x h = Cert.Spec.rowi x := by
  funext j
  refine (shapeCast_addUnit_apply (n := 1) ![122186] x h j).trans ?_
  unfold Cert.Spec.rowi
  exact congrArg x (funext fun a => Fin.ext (by match a with | ⟨0, _⟩ => rfl))

/-! ## The claims -/

/-- The bit-level program runs and leaves its arguments as launched. -/
theorem frame_k : Cert.frame_Kernel := fun m ρ _ => Cert.Kernel.Hand.frame_any (F := Bits) m ρ

/-- So does the idealized one: its run with the two results dropped. -/
theorem frame_ki : Cert.frame_KernelIdeal := fun m ρ _ =>
  (θ_run Cert.KernelIdeal.defs _ _).mono (fun _ h c => (h c).2.2) (Cert.KernelIdeal.Hand.run_values m ρ)

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the text result at `Gt` and the image
    result at `Gi` of the arguments: the kernel's arrays after their write-backs, and the reference's composed term
    read at an index. -/
theorem algebraic : Cert.algebraic_KernelIdeal_ReferenceIdeal := by
  intro m ρ m' ρ' _ hagree
  refine ⟨fun c => Cert.Spec.Gt (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.Spec.rowt (m ((c.tc : Thread Cert.KernelIdeal.nD Cert.KernelIdeal.τ).loc Cert.KernelIdeal.main_arg3))) (Cert.Spec.rowt (m ((c.tc : Thread Cert.KernelIdeal.nD Cert.KernelIdeal.τ).loc Cert.KernelIdeal.main_arg4))),
    fun c => Cert.Spec.Gi (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (Cert.Spec.rowi (m ((c.tc : Thread Cert.KernelIdeal.nD Cert.KernelIdeal.τ).loc Cert.KernelIdeal.main_arg5))) (Cert.Spec.rowi (m ((c.tc : Thread Cert.KernelIdeal.nD Cert.KernelIdeal.τ).loc Cert.KernelIdeal.main_arg6))), ?_, ?_⟩
  · refine (θ_run Cert.KernelIdeal.defs _ _).mono (fun r h c => ⟨(h c).1.trans ?_, (h c).2.1.trans ?_, (h c).2.2⟩)
      (Cert.KernelIdeal.Hand.run_values m ρ)
    · rw [Cert.KernelIdeal.Hand.final0, Cert.KernelIdeal.Hand.V1_arg0, Cert.KernelIdeal.Hand.V1_arg1,
        Cert.KernelIdeal.Hand.V1_v0, Cert.KernelIdeal.Hand.V1_v1, reshape_rowt, reshape_rowt]
    · rw [Cert.KernelIdeal.Hand.final1, Cert.KernelIdeal.Hand.V3_arg0, Cert.KernelIdeal.Hand.V3_arg2,
        Cert.KernelIdeal.Hand.V3_v3, Cert.KernelIdeal.Hand.V3_v4, reshape_rowi, reshape_rowi]
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v10_eq, Cert.ReferenceIdeal.RefValue.text_eq,
        (hagree c).1, (hagree c).2.1, (hagree c).2.2.2.1, (hagree c).2.2.2.2.1]
    · rw [Cert.ReferenceIdeal.Read.val_main_v17_eq, Cert.ReferenceIdeal.RefValue.image_eq,
        (hagree c).1, (hagree c).2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
